-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S1x1x2048x2048 : Shape := ⟨4, ![1, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S1x1x2048x2048 32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S1x1x2048x2048 : Shape := ⟨4, ![1, 1, 2048, 2048]⟩
abbrev S32x2048x64 : Shape := ⟨3, ![32, 2048, 64]⟩
abbrev S2048x2048 : Shape := ⟨2, ![2048, 2048]⟩
abbrev S32x2048x2048 : Shape := ⟨3, ![32, 2048, 2048]⟩
abbrev S1x256x64 : Shape := ⟨3, ![1, 256, 64]⟩
abbrev S1x2048x64 : Shape := ⟨3, ![1, 2048, 64]⟩
abbrev S1x256x2048 : Shape := ⟨3, ![1, 256, 2048]⟩
abbrev S256x64 : Shape := ⟨2, ![256, 64]⟩
abbrev S2048x64 : Shape := ⟨2, ![2048, 64]⟩
abbrev S256x2048 : Shape := ⟨2, ![256, 2048]⟩
abbrev S64x2048 : Shape := ⟨2, ![64, 2048]⟩
abbrev S256 : Shape := ⟨1, ![256]⟩
abbrev S256x1 : Shape := ⟨2, ![256, 1]⟩
abbrev S2x16x2048x2048 : Shape := ⟨4, ![2, 16, 2048, 2048]⟩

abbrev nBuf : Space → Nat
  | .hbm => 12
  | .vmem => 11
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S2048x2048, .i32⟩
  | .hbm, ⟨8, _⟩ => ⟨S32x2048x64, .f32⟩
  | .hbm, ⟨9, _⟩ => ⟨S32x2048x2048, .f32⟩
  | .hbm, ⟨10, _⟩ => ⟨S2x16x2048x64, .f32⟩
  | .hbm, ⟨11, _⟩ => ⟨S2x16x2048x2048, .f32⟩
  | .local _ .vmem, ⟨0, _⟩ => ⟨S1x256x64, .f32⟩
  | .local _ .vmem, ⟨1, _⟩ => ⟨S1x256x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S2048x2048, .i32⟩
  | .local _ .vmem, ⟨7, _⟩ => ⟨S1x256x64, .f32⟩
  | .local _ .vmem, ⟨8, _⟩ => ⟨S1x256x64, .f32⟩
  | .local _ .vmem, ⟨9, _⟩ => ⟨S1x256x2048, .f32⟩
  | .local _ .vmem, ⟨10, _⟩ => ⟨S1x256x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 8], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  v0
def k0_off1 (i : grid0.Coords) : Fin 2 → Nat :=
  let arg1 : BitVec 32 := BitVec.ofNat 32 (i 1).val
  let c256_i32 : BitVec 32 := 256#32
  let v0 : BitVec 32 := Scalar.muli arg1 c256_i32
  let v1 : BitVec 32 := v0
  let v8 : Index := Scalar.indexCast v1
  let c0_8 : Index := 0#32
  ![v8.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S2x16x2048x64_S32x2048x64 : S2x16x2048x64.ShapeCasts S32x2048x64
  shapeCasts_S1x1x2048x2048_S2048x2048 : S1x1x2048x2048.ShapeCasts S2048x2048
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  h_S256x2048 : 0 < S256x2048.numel
  shapeCasts_S256x2048_S256x2048 : S256x2048.ShapeCasts S256x2048
  bitsLt_bf16_f32 : FTy.bits .bf16 < FTy.bits .f32
  transposes_S2048x64_p1_0_S64x2048 : S2048x64.Transposes [1, 0] S64x2048
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x64_S1x256x64 : S256x64.ShapeCasts S1x256x64
  shapeCasts_S32x2048x64_S2x16x2048x64 : S32x2048x64.ShapeCasts S2x16x2048x64
  shapeCasts_S32x2048x2048_S2x16x2048x2048 : S32x2048x2048.ShapeCasts S2x16x2048x2048
  dot_S256x64_S64x2048_S256x2048_1_0_0_1_n_n_wf : DotDims.WF S256x64 S64x2048 S256x2048 [1] [0] [0] [1] [] []
  dot_S256x2048_S2048x64_S256x64_1_0_0_1_n_n_wf : DotDims.WF S256x2048 S2048x64 S256x64 [1] [0] [0] [1] [] []
  hrank0 : 0 < grid0.rank
  k0_mult1_dvd : ∀ i : grid0.Coords, 256 ∣ (k0_mult1 i).toNat
  k0_off1_inb : ∀ i : grid0.Coords, ∀ a, (k0_off1 i) a + S256x2048.size a ≤ S2048x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x64.size a ≤ S32x2048x64.size a
  hwx0_0 : ∀ i : grid0.Coords, EltTy.bits .f32 = 32 ∨ (Rect.block (s := S32x2048x64) S1x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .i32 = 32 ∨ (Rect.block (s := S2048x2048) S2048x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x64.size a ≤ S32x2048x64.size a
  hwx0_4 : ∀ i : grid0.Coords, EltTy.bits .f32 = 32 ∨ (Rect.block (s := S32x2048x64) S1x256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S32x2048x2048.size a
  hwx0_5 : ∀ i : grid0.Coords, EltTy.bits .f32 = 32 ∨ (Rect.block (s := S32x2048x2048) S1x256x2048.size (cc0_transform_5 i) (hinb0_5 i)).WholeWords (EltTy.packing .f32)

variable [Facts₀]

def dot_S256x64_S64x2048_S256x2048_1_0_0_1_n_n : DotDims S256x64 S64x2048 S256x2048 where
  lhsContracting := [1]
  rhsContracting := [0]
  lhsNonContracting := [0]
  rhsNonContracting := [1]
  lhsBatch := []
  rhsBatch := []
  wf := dot_S256x64_S64x2048_S256x2048_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S1x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S1x256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S1x1x2048x2048 : Shape := ⟨4, ![1, 1, 2048, 2048]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S1x1x2048x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x2048, .f32⟩
  | .hbm, ⟨9, _⟩ => ⟨S2x16x2048x2048, .f32⟩
  | .hbm, ⟨10, _⟩ => ⟨S2x16x2048x2048, .f32⟩
  | .hbm, ⟨11, _⟩ => ⟨S_, .i32⟩
  | .hbm, ⟨12, _⟩ => ⟨S1x1x2048x2048, .i32⟩
  | .hbm, ⟨13, _⟩ => ⟨S1x1x2048x2048, .i1⟩
  | .hbm, ⟨14, _⟩ => ⟨S_, .f32⟩
  | .hbm, ⟨15, _⟩ => ⟨S2x16x2048x2048, .i1⟩
  | .hbm, ⟨16, _⟩ => ⟨S2x16x2048x2048, .f32⟩
  | .hbm, ⟨17, _⟩ => ⟨S2x16x2048x2048, .f32⟩
  | .hbm, ⟨18, _⟩ => ⟨S_, .f32⟩
  | .hbm, ⟨19, _⟩ => ⟨S2x16x2048, .f32⟩
  | .hbm, ⟨20, _⟩ => ⟨S_, .f32⟩
  | .hbm, ⟨21, _⟩ => ⟨S2x16x2048, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x2048, .f32⟩
  | .hbm, ⟨27, _⟩ => ⟨S_, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S_S1x1x2048x2048 : S_.BroadcastsInDim S1x1x2048x2048 (![] : Fin 0 → Fin S1x1x2048x2048.rank)
  bcast_S1x1x2048x2048_S2x16x2048x2048_0_1_2_3 : S1x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelPieces.lean ====
/-
  What one grid point leaves in the two output blocks: the payloads of the body's two stores, as functions of the
  blocks it loads.
-/
import proofs.«426068_j87978110091695_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl

theorem weights_piece (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x2048 .i32) (harg5 : arg5.IsWhole) (arg6 : Memref sig .tc .vmem S1x256x64 .f32) (harg6 : arg6.IsWhole) (arg7 : Memref sig .tc .vmem S1x256x2048 .f32) (harg7 : arg7.IsWhole)
    (x0 : Vec F S1x256x64 .f32) (x1 : Vec F S1x2048x64 .f32) (x2 : Vec F S1x2048x64 .f32) (x3 : Vec F S2048x2048 .i32) :
    out0_A_5 c i arg2 harg2 arg3 harg3 arg4 harg4 arg5 harg5 arg6 harg6 arg7 harg7 x0 x1 x2 x3
      = k0_pay4 x0 x1 (View.ld x3 (Rect.unit (s := S2048x2048) (k0_off1 i) S256x2048.size (k0_off1_inb i))) := by
  unfold out0_A_5
  rw [View.read_writes_eq_canon _ _ _ (cover0_A_5 c i arg2 harg2 arg3 harg3 arg4 harg4 arg5 harg5 arg6 harg6 arg7 harg7 x0 x1 x2 x3)]
  unfold kernelRun0_A
  dsimp only
  rw [View.canon_unit_zero hz3]
  simp only [View.readAt_eq_ld, harg2.read_unread, harg3.read_unread, harg5.read_unread,
    View.ld_unit_zero (S := S1x256x64) hz3, View.ld_unit_zero (S := S1x2048x64) hz3]

theorem output_piece (c : Dev nD) (i : grid0.Coords) (arg2 : Memref sig .tc .vmem S1x256x64 .f32) (harg2 : arg2.IsWhole) (arg3 : Memref sig .tc .vmem S1x2048x64 .f32) (harg3 : arg3.IsWhole) (arg4 : Memref sig .tc .vmem S1x2048x64 .f32) (harg4 : arg4.IsWhole) (arg5 : Memref sig .tc .vmem S2048x2048 .i32) (harg5 : arg5.IsWhole) (arg6 : Memref sig .tc .vmem S1x256x64 .f32) (harg6 : arg6.IsWhole) (arg7 : Memref sig .tc .vmem S1x256x2048 .f32) (harg7 : arg7.IsWhole)
    (x0 : Vec F S1x256x64 .f32) (x1 : Vec F S1x2048x64 .f32) (x2 : Vec F S1x2048x64 .f32) (x3 : Vec F S2048x2048 .i32) :
    out0_A_4 c i arg2 harg2 arg3 harg3 arg4 harg4 arg5 harg5 arg6 harg6 arg7 harg7 x0 x1 x2 x3
      = k0_pay1 (k0_pay2 x2) (k0_pay5 x0 x1 (View.ld x3 (Rect.unit (s := S2048x2048) (k0_off1 i) S256x2048.size (k0_off1_inb i)))) := by
  unfold out0_A_4
  rw [View.read_writes_eq_canon _ _ _ (cover0_A_4 c i arg2 harg2 arg3 harg3 arg4 harg4 arg5 harg5 arg6 harg6 arg7 harg7 x0 x1 x2 x3)]
  unfold kernelRun0_A
  dsimp only
  sl_unfold_words
  rw [View.canon_unit_zero hz3]
  simp only [View.readAt_eq_ld, harg2.read_unread, harg3.read_unread, harg4.read_unread, harg5.read_unread,
    View.ld_unit_zero (S := S1x256x64) hz3, View.ld_unit_zero (S := S1x2048x64) hz3]

end Cert.KernelIdeal.Pieces

end
-- ==== Proof.AttnRow.lean ====
/-
  One attention row over the extended reals, as a function of the query row, the key rows, the mask row and the
  value rows. Two spellings are given. The first scales the query row by 1/8 before the products with the key
  rows, and normalises by multiplying with the reciprocal of the row's sum. The second scales the dot product by
  1 / sqrt 64 afterwards, takes the maximum once more against minus infinity, adds the exponentials to a zero,
  and normalises by a quotient. On finite rows they are one function: 1 / sqrt 64 is the real 1/8, a real factor
  moves across a finite sum of reals, and the row's sum of exponentials is a positive real, so that multiplying by
  its reciprocal is dividing by it.
-/
import Idealize.ShloMosaic.PureOps.Ideal
import Idealize.ShloMosaic.PureOps.Ideal.Laws

noncomputable section

namespace Cert.AttnRow

open Idealize.ShloMosaic

/-- An extended real that is a real number. -/
def IsReal (x : EReal) : Prop := ∃ r : ℝ, x = (r : EReal)

/-- The masked score of the query row against key row `c`, the query scaled first: where the mask word is zero
    the constant -10000, elsewhere the sum over the 64 features of (q · 1/8) · k. -/
def scoreK (q : Fin 64 → EReal) (k : Fin 2048 → Fin 64 → EReal) (mk : Fin 2048 → BitVec 32) (c : Fin 2048) : EReal :=
  Scalar.select (IntOp.cmpi .eq (mk c) 0#32) (Ideal.ofBits .f32 0xC61C4000#32)
    (∑ d : Fin 64, (q d * Ideal.ofBits .f32 0x3E000000#32) * k c d)

/-- The same score with the dot product scaled afterwards by 1 / sqrt 64. -/
def scoreR (q : Fin 64 → EReal) (k : Fin 2048 → Fin 64 → EReal) (mk : Fin 2048 → BitVec 32) (c : Fin 2048) : EReal :=
  Scalar.select (IntOp.cmpi .eq (mk c) 0#32) (Ideal.ofBits .f32 0xC61C4000#32)
    ((∑ d : Fin 64, q d * k c d)
      * Ideal.div (Ideal.ofBits .f32 0x3F800000#32) (Ideal.sqrt (Ideal.ofBits .f32 0x42800000#32)))

/-- The maximum of a row of 2048 scores, folded from minus infinity. -/
def rowMax (s : Fin 2048 → EReal) : EReal :=
  (Finset.univ : Finset (Fin 2048)).fold max (Ideal.ofBits .f32 0xFF800000#32) s

/-- The softmax of a row at column `c`, normalised by the reciprocal of the row's sum of exponentials. -/
def probK (s : Fin 2048 → EReal) (c : Fin 2048) : EReal :=
  Ideal.exp (s c - rowMax s)
    * Ideal.div (Ideal.ofBits .f32 0x3F800000#32) (∑ c' : Fin 2048, Ideal.exp (s c' - rowMax s))

/-- The softmax of a row at column `c`, the maximum taken once more against minus infinity, the sum started at a
    zero, normalised by a quotient. -/
def probR (s : Fin 2048 → EReal) (c : Fin 2048) : EReal :=
  Ideal.div (Ideal.exp (s c - max (Ideal.ofBits .f32 0xFF800000#32) (rowMax s)))
    (Ideal.ofBits .f32 0x00000000#32
      + ∑ c' : Fin 2048, Ideal.exp (s c' - max (Ideal.ofBits .f32 0xFF800000#32) (rowMax s)))

/-- The attention weights of one query row, first spelling. -/
def attnK (q : Fin 64 → EReal) (k : Fin 2048 → Fin 64 → EReal) (mk : Fin 2048 → BitVec 32) (c : Fin 2048) : EReal :=
  probK (scoreK q k mk) c

/-- The attention weights of one query row, second spelling. -/
def attnR (q : Fin 64 → EReal) (k : Fin 2048 → Fin 64 → EReal) (mk : Fin 2048 → BitVec 32) (c : Fin 2048) : EReal :=
  probR (scoreR q k mk) c

/-- The output row: the weights times the value rows, summed over the 2048 keys. -/
def outK (q : Fin 64 → EReal) (k : Fin 2048 → Fin 64 → EReal) (mk : Fin 2048 → BitVec 32)
    (v : Fin 2048 → Fin 64 → EReal) (d : Fin 64) : EReal :=
  ∑ c : Fin 2048, attnK q k mk c * v c d

def outR (q : Fin 64 → EReal) (k : Fin 2048 → Fin 64 → EReal) (mk : Fin 2048 → BitVec 32)
    (v : Fin 2048 → Fin 64 → EReal) (d : Fin 64) : EReal :=
  ∑ c : Fin 2048, attnR q k mk c * v c d

/-! ### The constants -/

/-- The word `0x3F800000` denotes `1`. -/
private theorem ofBits_one : Ideal.ofBits .f32 0x3F800000#32 = 1 := by
  simp [Ideal.ofBits, Ideal.ieee, -EReal.coe_mul]; norm_num

/-- The word `0x42800000` denotes the real `64`. -/
private theorem ofBits_64 : Ideal.ofBits .f32 0x42800000#32 = ((64 : ℝ) : EReal) := by
  simp [Ideal.ofBits, Ideal.ieee, -EReal.coe_mul]; norm_num

/-- The word `0x3E000000` denotes the real `1/8`. -/
private theorem ofBits_eighth : Ideal.ofBits .f32 0x3E000000#32 = ((1 / 8 : ℝ) : EReal) := by
  simp [Ideal.ofBits, Ideal.ieee, -EReal.coe_mul]; norm_num

/-- The masking constant is a real number. -/
private theorem ofBits_mask_real : IsReal (Ideal.ofBits .f32 0xC61C4000#32) := by
  refine ⟨-10000, ?_⟩
  simp [Ideal.ofBits, Ideal.ieee, -EReal.coe_mul]; norm_num

/-- The word `0xFF800000` denotes minus infinity. -/
private theorem ofBits_bot : Ideal.ofBits .f32 0xFF800000#32 = ⊥ := by
  simp [Ideal.ofBits, Ideal.ieee]

/-! ### The scale -/

/-- The square root of `64` is `8`. -/
private theorem sqrt_64 : Ideal.sqrt ((64 : ℝ) : EReal) = ((8 : ℝ) : EReal) := by
  rw [Ideal.sqrt_coe, if_neg (by norm_num)]
  congr 1
  rw [show (64 : ℝ) = 8 ^ 2 by norm_num, Real.sqrt_sq (by norm_num)]

/-- `1 / sqrt 64` is the real `1/8`. -/
private theorem scale_eq :
    Ideal.div (Ideal.ofBits .f32 0x3F800000#32) (Ideal.sqrt (Ideal.ofBits .f32 0x42800000#32))
      = ((1 / 8 : ℝ) : EReal) := by
  rw [ofBits_one, ofBits_64, sqrt_64, Ideal.div_coe (by norm_num), one_mul]

/-! ### Finite sums of reals -/

/-- The coercion of a finite sum of reals is the sum of the coercions. -/
private theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The dot product with the query scaled first is the coercion of a real sum. -/
private theorem dotK_coe (q kc : Fin 64 → ℝ) :
    (∑ d : Fin 64, ((q d : EReal) * ((1 / 8 : ℝ) : EReal)) * (kc d : EReal))
      = ((∑ d : Fin 64, (q d * (1 / 8)) * kc d : ℝ) : EReal) := by
  rw [coe_sum]
  exact Finset.sum_congr rfl fun d _ => by rw [EReal.coe_mul, EReal.coe_mul]

/-- The plain dot product is the coercion of a real sum. -/
private theorem dot_coe (q kc : Fin 64 → ℝ) :
    (∑ d : Fin 64, (q d : EReal) * (kc d : EReal)) = ((∑ d : Fin 64, q d * kc d : ℝ) : EReal) := by
  rw [coe_sum]
  exact Finset.sum_congr rfl fun d _ => (EReal.coe_mul _ _).symm

/-- A real factor moves across a finite sum of real products. -/
private theorem dot_scale (q kc : Fin 64 → ℝ) :
    (∑ d : Fin 64, (q d : EReal) * (kc d : EReal)) * ((1 / 8 : ℝ) : EReal)
      = ∑ d : Fin 64, ((q d : EReal) * ((1 / 8 : ℝ) : EReal)) * (kc d : EReal) := by
  rw [dot_coe, dotK_coe, ← EReal.coe_mul, Finset.sum_mul]
  congr 1
  exact Finset.sum_congr rfl fun d _ => by ring

/-! ### The scores -/

/-- On finite rows the two spellings of the score agree. -/
private theorem scoreR_eq_scoreK (q : Fin 64 → EReal) (k : Fin 2048 → Fin 64 → EReal) (mk : Fin 2048 → BitVec 32)
    (hq : ∀ d, IsReal (q d)) (hk : ∀ c d, IsReal (k c d)) : scoreR q k mk = scoreK q k mk := by
  funext c
  choose qr hqr using hq
  choose kr hkr using hk
  obtain rfl : q = fun d => (qr d : EReal) := funext hqr
  obtain rfl : k = fun c d => (kr c d : EReal) := funext fun c => funext (hkr c)
  unfold scoreR scoreK
  rw [scale_eq, ofBits_eighth]
  exact congrArg _ (dot_scale qr (kr c))

/-- On finite rows every score is a real number. -/
private theorem scoreK_real (q : Fin 64 → EReal) (k : Fin 2048 → Fin 64 → EReal) (mk : Fin 2048 → BitVec 32)
    (hq : ∀ d, IsReal (q d)) (hk : ∀ c d, IsReal (k c d)) (c : Fin 2048) : IsReal (scoreK q k mk c) := by
  choose qr hqr using hq
  choose kr hkr using hk
  obtain rfl : q = fun d => (qr d : EReal) := funext hqr
  obtain rfl : k = fun c d => (kr c d : EReal) := funext fun c => funext (hkr c)
  unfold scoreK Scalar.select
  split
  · exact ofBits_mask_real
  · rw [ofBits_eighth]
    exact ⟨_, dotK_coe qr (kr c)⟩

/-! ### The softmax -/

/-- The maximum of a row of reals is a real number: it is above the row's first entry and below plus infinity. -/
private theorem rowMax_real (s : Fin 2048 → EReal) (hs : ∀ c, IsReal (s c)) : IsReal (rowMax s) := by
  have hbot : rowMax s ≠ ⊥ := by
    have hle : s 0 ≤ rowMax s := by
      unfold rowMax
      exact (Finset.le_fold_max _).mpr (Or.inr ⟨0, Finset.mem_univ _, le_rfl⟩)
    obtain ⟨r, hr⟩ := hs 0
    intro h
    rw [h, hr] at hle
    exact absurd hle (not_le.mpr (EReal.bot_lt_coe r))
  have htop : rowMax s ≠ ⊤ := by
    have hlt : rowMax s < ⊤ := by
      unfold rowMax
      rw [ofBits_bot]
      refine (Finset.fold_max_lt _).mpr ⟨bot_lt_top, fun x _ => ?_⟩
      obtain ⟨r, hr⟩ := hs x
      rw [hr]
      exact EReal.coe_lt_top r
    exact ne_of_lt hlt
  exact ⟨(rowMax s).toReal, (EReal.coe_toReal htop hbot).symm⟩

/-- On a row of reals the two spellings of the softmax agree: the row's sum of exponentials is a positive real,
    and multiplying by its reciprocal is dividing by it. -/
private theorem probR_eq_probK (s : Fin 2048 → EReal) (hs : ∀ c, IsReal (s c)) (c : Fin 2048) :
    probR s c = probK s c := by
  obtain ⟨m, hm⟩ := rowMax_real s hs
  choose sr hsr using hs
  have hexp : ∀ c', Ideal.exp (s c' - (m : EReal)) = ((Real.exp (sr c' - m) : ℝ) : EReal) := fun c' => by
    rw [hsr c', ← EReal.coe_sub, Ideal.exp_coe]
  have hpos : 0 < ∑ c' : Fin 2048, Real.exp (sr c' - m) :=
    Finset.sum_pos (fun i _ => Real.exp_pos _) Finset.univ_nonempty
  unfold probR probK
  rw [hm, ofBits_bot, max_eq_right bot_le, Ideal.ofBits_zero_f32, zero_add, ofBits_one]
  simp only [hexp]
  rw [← coe_sum, Ideal.div_coe hpos.ne', Ideal.div_coe hpos.ne', one_mul]

/-- On finite query and key rows the two spellings of the attention weights agree. -/
theorem attnR_eq_attnK (q : Fin 64 → EReal) (k : Fin 2048 → Fin 64 → EReal) (mk : Fin 2048 → BitVec 32)
    (hq : ∀ d, IsReal (q d)) (hk : ∀ c d, IsReal (k c d)) (c : Fin 2048) :
    attnR q k mk c = attnK q k mk c := by
  unfold attnR attnK
  rw [scoreR_eq_scoreK q k mk hq hk]
  exact probR_eq_probK _ (scoreK_real q k mk hq hk) c

/-- So do the output rows. -/
theorem outR_eq_outK (q : Fin 64 → EReal) (k : Fin 2048 → Fin 64 → EReal) (mk : Fin 2048 → BitVec 32)
    (v : Fin 2048 → Fin 64 → EReal) (hq : ∀ d, IsReal (q d)) (hk : ∀ c d, IsReal (k c d)) (d : Fin 64) :
    outR q k mk v d = outK q k mk v d := by
  unfold outR outK
  exact Finset.sum_congr rfl fun c _ => by rw [attnR_eq_attnK q k mk hq hk c]

end Cert.AttnRow

end
-- ==== Proof.KernelBody.lean ====
/-
  The arithmetic of one grid point, read at an index. The body computes, for the 256 query rows of its block
  against all 2048 keys: the scores (q · 1/8) · kᵀ, masked to -10000 where the mask word is zero; each row's
  maximum; the exponentials of the differences; each row's sum; the reciprocal of the sum; the weights, stored as
  the second result's block; and the weights times the value rows, stored as the first result's block. Read at row
  `p` of the block, this is the attention row (module AttnRow, first spelling) of the block's query row `p`, the key
  rows, row `p` of the loaded mask band and the value rows.
-/
import proofs.«426068_j87978110091695_3_alg».proof.Proof.Gen.KernelIdeal.Skeleton
import proofs.«426068_j87978110091695_3_alg».proof.Proof.AttnRow
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen Cert.AttnRow

/-! ## The rows a point's blocks give -/

/-- Row `p` of the query block. -/
def qrowB (x0 : FVec Ideal S1x256x64 .f32) (p : Fin 256) : Fin 64 → EReal := fun d => x0 (ix3 (0 : Fin 1) p d)
/-- The rows of a key or value block. -/
def krowsB (x1 : FVec Ideal S1x2048x64 .f32) : Fin 2048 → Fin 64 → EReal := fun c d => x1 (ix3 (0 : Fin 1) c d)
/-- Row `p` of the loaded band of the mask. -/
def mrowB (x9 : IVec S256x2048 32) (p : Fin 256) : Fin 2048 → BitVec 32 := fun c => x9 (ix2 p c)

/-! ## Column vectors: a vector as one column, and a column spread over the lanes -/

theorem col_cast_apply {α : Type} (v : S256.Idx → α) (h : S256.ShapeCasts S256x1) (p : Fin 256) (z : Fin 1) :
    shapeCast S256x1 v h (ix2 p z) = v (ix1 p) :=
  shapeCast_apply v h _ _ (by
    have hz : z.val = 0 := by omega
    rw [Shape.rowMajor_val_one, Shape.rowMajor_val_two]
    show p.val = p.val * 1 + z.val
    rw [hz, Nat.mul_one, Nat.add_zero])

theorem col_spread_apply {α : Type} (v : S256x1.Idx → α) (h : S256x1.Broadcasts S256x2048) (p : Fin 256) (c : Fin 2048) :
    broadcastTo S256x2048 v h (ix2 p c) = v (ix2 p (0 : Fin 1)) := by
  refine broadcastTo_apply v h (ix2 p c) (ix2 p (0 : Fin 1)) fun ax => ?_
  match ax with
  | ⟨0, _⟩ => rfl
  | ⟨1, _⟩ => rfl

/-! ## The two matrix products -/

theorem lhs_qk_0 (i : S256x2048.Idx) (q : dot_S256x64_S64x2048_S256x2048_1_0_0_1_n_n.contr.Idx) :
    (dot_S256x64_S64x2048_S256x2048_1_0_0_1_n_n.lhsIdx i q 0).val = (i 0).val := by
  unfold DotDims.lhsIdx
  rw [dif_neg (show ¬(0 : Fin S256x64.rank) ∈ dot_S256x64_S64x2048_S256x2048_1_0_0_1_n_n.lhsBatch by decide), dif_pos (show (0 : Fin S256x64.rank) ∈ dot_S256x64_S64x2048_S256x2048_1_0_0_1_n_n.lhsNonContracting by decide)]
  rfl
theorem lhs_qk_1 (i : S256x2048.Idx) (q : dot_S256x64_S64x2048_S256x2048_1_0_0_1_n_n.contr.Idx) :
    (dot_S256x64_S64x2048_S256x2048_1_0_0_1_n_n.lhsIdx i q 1).val = (q ⟨0, by decide⟩).val :=
  dot_S256x64_S64x2048_S256x2048_1_0_0_1_n_n.lhsIdx_val_of_single rfl i q
theorem rhs_qk_0 (i : S256x2048.Idx) (q : dot_S256x64_S64x2048_S256x2048_1_0_0_1_n_n.contr.Idx) :
    (dot_S256x64_S64x2048_S256x2048_1_0_0_1_n_n.rhsIdx i q 0).val = (q ⟨0, by decide⟩).val :=
  dot_S256x64_S64x2048_S256x2048_1_0_0_1_n_n.rhsIdx_val_of_single rfl i q
theorem rhs_qk_1 (i : S256x2048.Idx) (q : dot_S256x64_S64x2048_S256x2048_1_0_0_1_n_n.contr.Idx) :
    (dot_S256x64_S64x2048_S256x2048_1_0_0_1_n_n.rhsIdx i q 1).val = (i 1).val := by
  unfold DotDims.rhsIdx
  rw [dif_neg (show ¬(1 : Fin S64x2048.rank) ∈ dot_S256x64_S64x2048_S256x2048_1_0_0_1_n_n.rhsBatch by decide), dif_pos (show (1 : Fin S64x2048.rank) ∈ dot_S256x64_S64x2048_S256x2048_1_0_0_1_n_n.rhsNonContracting by decide)]
  rfl

/-- The product of a 256×64 matrix with a 64×2048 one into a zero accumulator, at (p, c): the sum over the 64
    features. -/
theorem qk_apply (a : FVec Ideal S256x64 .bf16) (b : FVec Ideal S64x2048 .bf16) (p : Fin 256) (c : Fin 2048) :
    matmul dot_S256x64_S64x2048_S256x2048_1_0_0_1_n_n none a b (constant (F := Ideal) S256x2048 .f32 0x00000000#32) (ix2 p c)
      = ∑ d : Fin 64, a (ix2 p d) * b (ix2 d c) := by
  simp only [matmul]
  rw [Ideal.matmul_constant_zero_apply, ← Equiv.sum_comp (ValueIdx.contrEquiv1 dot_S256x64_S64x2048_S256x2048_1_0_0_1_n_n 64 rfl rfl).symm]
  refine Finset.sum_congr rfl fun k _ => ?_
  have hk := ValueIdx.contrEquiv1_symm_val dot_S256x64_S64x2048_S256x2048_1_0_0_1_n_n 64 rfl rfl k
  have el : dot_S256x64_S64x2048_S256x2048_1_0_0_1_n_n.lhsIdx (ix2 p c) ((ValueIdx.contrEquiv1 dot_S256x64_S64x2048_S256x2048_1_0_0_1_n_n 64 rfl rfl).symm k) = ix2 p k := funext fun ax => Fin.ext (by
    match ax with
    | ⟨0, _⟩ => exact lhs_qk_0 _ _
    | ⟨1, _⟩ => exact (lhs_qk_1 _ _).trans hk)
  have er : dot_S256x64_S64x2048_S256x2048_1_0_0_1_n_n.rhsIdx (ix2 p c) ((ValueIdx.contrEquiv1 dot_S256x64_S64x2048_S256x2048_1_0_0_1_n_n 64 rfl rfl).symm k) = ix2 k c := funext fun ax => Fin.ext (by
    match ax with
    | ⟨0, _⟩ => exact (rhs_qk_0 _ _).trans hk
    | ⟨1, _⟩ => exact rhs_qk_1 _ _)
  rw [el, er]

theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide), dif_pos (show (0 : Fin S256x2048.rank) ∈ dot_S256x2048_S2048x64_S256x64_1_0_0_1_n_n.lhsNonContracting by decide)]
  rfl
theorem lhs_pv_1 (i : S256x64.Idx) (q : dot_S256x2048_S2048x64_S256x64_1_0_0_1_n_n.contr.Idx) :
    (dot_S256x2048_S2048x64_S256x64_1_0_0_1_n_n.lhsIdx i q 1).val = (q ⟨0, by decide⟩).val :=
  dot_S256x2048_S2048x64_S256x64_1_0_0_1_n_n.lhsIdx_val_of_single rfl i q
theorem rhs_pv_0 (i : S256x64.Idx) (q : dot_S256x2048_S2048x64_S256x64_1_0_0_1_n_n.contr.Idx) :
    (dot_S256x2048_S2048x64_S256x64_1_0_0_1_n_n.rhsIdx i q 0).val = (q ⟨0, by decide⟩).val :=
  dot_S256x2048_S2048x64_S256x64_1_0_0_1_n_n.rhsIdx_val_of_single rfl i q
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide), dif_pos (show (1 : Fin S2048x64.rank) ∈ dot_S256x2048_S2048x64_S256x64_1_0_0_1_n_n.rhsNonContracting by decide)]
  rfl

/-- The product of a 256×2048 matrix with a 2048×64 one into a zero accumulator, at (p, d): the sum over the 2048
    keys. -/
theorem pv_apply (a : FVec Ideal S256x2048 .bf16) (b : FVec Ideal S2048x64 .bf16) (p : Fin 256) (d : Fin 64) :
    matmul dot_S256x2048_S2048x64_S256x64_1_0_0_1_n_n none a b (constant (F := Ideal) S256x64 .f32 0x00000000#32) (ix2 p d)
      = ∑ c : Fin 2048, a (ix2 p c) * b (ix2 c d) := by
  simp only [matmul]
  rw [Ideal.matmul_constant_zero_apply, ← Equiv.sum_comp (ValueIdx.contrEquiv1 dot_S256x2048_S2048x64_S256x64_1_0_0_1_n_n 2048 rfl rfl).symm]
  refine Finset.sum_congr rfl fun k _ => ?_
  have hk := ValueIdx.contrEquiv1_symm_val dot_S256x2048_S2048x64_S256x64_1_0_0_1_n_n 2048 rfl rfl k
  have el : dot_S256x2048_S2048x64_S256x64_1_0_0_1_n_n.lhsIdx (ix2 p d) ((ValueIdx.contrEquiv1 dot_S256x2048_S2048x64_S256x64_1_0_0_1_n_n 2048 rfl rfl).symm k) = ix2 p k := funext fun ax => Fin.ext (by
    match ax with
    | ⟨0, _⟩ => exact lhs_pv_0 _ _
    | ⟨1, _⟩ => exact (lhs_pv_1 _ _).trans hk)
  have er : dot_S256x2048_S2048x64_S256x64_1_0_0_1_n_n.rhsIdx (ix2 p d) ((ValueIdx.contrEquiv1 dot_S256x2048_S2048x64_S256x64_1_0_0_1_n_n 2048 rfl rfl).symm k) = ix2 k d := funext fun ax => Fin.ext (by
    match ax with
    | ⟨0, _⟩ => exact (rhs_pv_0 _ _).trans hk
    | ⟨1, _⟩ => exact rhs_pv_1 _ _)
  rw [el, er]

/-! ## The score matrix, the exponentials, the weights -/

/-- The masked scores of the block's 256 query rows against the 2048 keys. -/
def scoreM (x0 : FVec Ideal S1x256x64 .f32) (x1 : FVec Ideal S1x2048x64 .f32) (x9 : IVec S256x2048 32) : FVec Ideal S256x2048 .f32 :=
  select (cmpi .eq (shapeCast S256x2048 x9 shapeCasts_S256x2048_S256x2048) (broadcast S256x2048 0#32))
    (broadcast S256x2048 (Scalar.ofBits (F := Ideal) .f32 0xC61C4000#32))
    (matmul dot_S256x64_S64x2048_S256x2048_1_0_0_1_n_n none
      (truncf .bf16 (mulf (shapeCast S256x64 x0 shapeCasts_S1x256x64_S256x64) (broadcast S256x64 (Scalar.ofBits (F := Ideal) .f32 0x3E000000#32))) bitsLt_bf16_f32)
      (transpose S64x2048 [1, 0] (truncf .bf16 (shapeCast S2048x64 x1 shapeCasts_S1x2048x64_S2048x64) bitsLt_bf16_f32) transposes_S2048x64_p1_0_S64x2048)
      (constant (F := Ideal) S256x2048 .f32 0x00000000#32))

theorem scoreM_at (x0 : FVec Ideal S1x256x64 .f32) (x1 : FVec Ideal S1x2048x64 .f32) (x9 : IVec S256x2048 32) (p : Fin 256) (c : Fin 2048) :
    scoreM x0 x1 x9 (ix2 p c) = scoreK (qrowB x0 p) (krowsB x1) (mrowB x9 p) c := by
  unfold scoreM scoreK
  rw [select_apply, qk_apply]
  show Scalar.select (IntOp.cmpi .eq (shapeCast S256x2048 x9 shapeCasts_S256x2048_S256x2048 (ix2 p c)) 0#32) (Ideal.ofBits .f32 0xC61C4000#32) _ = _
  rw [shapeCast_self]
  refine congrArg (Scalar.select (IntOp.cmpi .eq (x9 (ix2 p c)) 0#32) (Ideal.ofBits .f32 0xC61C4000#32)) ?_
  refine Finset.sum_congr rfl fun d _ => ?_
  rw [transpose_ix2_apply]
  show (shapeCast S256x64 x0 shapeCasts_S1x256x64_S256x64 (ix2 p d) * Ideal.ofBits .f32 0x3E000000#32) * shapeCast S2048x64 x1 shapeCasts_S1x2048x64_S2048x64 (ix2 c d) = _
  rw [shapeCast_1ab_ab_apply, shapeCast_1ab_ab_apply]
  rfl

/-- A row's maximum, kept as a column and spread over the 2048 lanes, at (p, c): the maximum of row `p`. -/
theorem rowmax_spread (s : FVec Ideal S256x2048 .f32) (p : Fin 256) (c : Fin 2048) :
    broadcastTo S256x2048 (shapeCast S256x1 (multiReduction .maximumf [1] S256 s 0xFF800000#32 reduces_S256x2048_S256 (.inl rfl) rfl) shapeCasts_S256_S256x1) broadcasts_S256x1_S256x2048 (ix2 p c)
      = rowMax (fun k => s (ix2 p k)) := by
  rw [col_spread_apply, col_cast_apply]
  refine (Ideal.multiReduction_maximumf_single s 0xFF800000#32 reduces_S256x2048_S256 (.inl rfl) rfl (ix1 p)).trans ?_
  unfold rowMax
  have hf : (s ∘ reduces_S256x2048_S256.lift (ix1 p)) = fun k : Fin 2048 => s (ix2 p k) :=
    funext fun k => congrArg s (funext fun ax => Fin.ext (by fin_cases ax <;> rfl))
  exact congrArg (fun f => Finset.fold max (Ideal.ofBits .f32 0xFF800000#32) f (Finset.univ : Finset (Fin 2048))) hf

/-- A row's sum, kept as a column, at (p, 0): the sum of row `p`. -/
theorem rowsum_col (e : FVec Ideal S256x2048 .f32) (p : Fin 256) :
    shapeCast S256x1 (multiReduction .add [1] S256 e 0x00000000#32 reduces_S256x2048_S256 (.inl rfl) rfl) shapeCasts_S256_S256x1 (ix2 p (0 : Fin 1))
      = ∑ k : Fin 2048, e (ix2 p k) := by
  rw [col_cast_apply]
  refine (Ideal.multiReduction_add_single e 0x00000000#32 reduces_S256x2048_S256 (.inl rfl) rfl (ix1 p)).trans ?_
  exact Finset.sum_congr rfl fun k _ => congrArg e (funext fun ax => Fin.ext (by fin_cases ax <;> rfl))

/-- The exponentials of the scores less their row's maximum. -/
def expM (x0 : FVec Ideal S1x256x64 .f32) (x1 : FVec Ideal S1x2048x64 .f32) (x9 : IVec S256x2048 32) : FVec Ideal S256x2048 .f32 :=
  exp (subf (scoreM x0 x1 x9) (broadcastTo S256x2048 (shapeCast S256x1 (multiReduction .maximumf [1] S256 (scoreM x0 x1 x9) 0xFF800000#32 reduces_S256x2048_S256 (.inl rfl) rfl) shapeCasts_S256_S256x1) broadcasts_S256x1_S256x2048))

theorem expM_at (x0 : FVec Ideal S1x256x64 .f32) (x1 : FVec Ideal S1x2048x64 .f32) (x9 : IVec S256x2048 32) (p : Fin 256) (c : Fin 2048) :
    expM x0 x1 x9 (ix2 p c)
      = Ideal.exp (scoreK (qrowB x0 p) (krowsB x1) (mrowB x9 p) c - rowMax (scoreK (qrowB x0 p) (krowsB x1) (mrowB x9 p))) := by
  unfold expM
  show Ideal.exp (scoreM x0 x1 x9 (ix2 p c) - broadcastTo S256x2048 _ broadcasts_S256x1_S256x2048 (ix2 p c)) = _
  rw [rowmax_spread, scoreM_at]
  have hrow : (fun k => scoreM x0 x1 x9 (ix2 p k)) = scoreK (qrowB x0 p) (krowsB x1) (mrowB x9 p) := funext fun k => scoreM_at x0 x1 x9 p k
  rw [hrow]

/-- The body's weights are the exponentials times the spread reciprocal of their row sums. -/
theorem pay3_eq (x0 : FVec Ideal S1x256x64 .f32) (x1 : FVec Ideal S1x2048x64 .f32) (x9 : IVec S256x2048 32) :
    k0_pay3 (F := Ideal) x0 x1 x9 = mulf (expM x0 x1 x9) (broadcastTo S256x2048 (divf (broadcast S256x1 (Scalar.ofBits (F := Ideal) .f32 0x3F800000#32)) (shapeCast S256x1 (multiReduction .add [1] S256 (expM x0 x1 x9) 0x00000000#32 reduces_S256x2048_S256 (.inl rfl) rfl) shapeCasts_S256_S256x1)) broadcasts_S256x1_S256x2048) := rfl

/-- The weights at (p, c): the attention row of the block's query row `p`, at key `c`. -/
theorem pay3_at (x0 : FVec Ideal S1x256x64 .f32) (x1 : FVec Ideal S1x2048x64 .f32) (x9 : IVec S256x2048 32) (p : Fin 256) (c : Fin 2048) :
    k0_pay3 (F := Ideal) x0 x1 x9 (ix2 p c) = attnK (qrowB x0 p) (krowsB x1) (mrowB x9 p) c := by
  rw [pay3_eq]
  unfold attnK probK
  rw [mulf_apply, col_spread_apply, divf_apply, rowsum_col, expM_at]
  have hsum : (∑ k : Fin 2048, expM x0 x1 x9 (ix2 p k))
      = ∑ c' : Fin 2048, Ideal.exp (scoreK (qrowB x0 p) (krowsB x1) (mrowB x9 p) c' - rowMax (scoreK (qrowB x0 p) (krowsB x1) (mrowB x9 p))) :=
    Finset.sum_congr rfl fun k _ => expM_at x0 x1 x9 p k
  rw [hsum]
  rfl

/-- The stored block of weights, at (0, p, c). -/
theorem pay4_at (x0 : FVec Ideal S1x256x64 .f32) (x1 : FVec Ideal S1x2048x64 .f32) (x9 : IVec S256x2048 32) (u : Fin 1) (p : Fin 256) (c : Fin 2048) :
    k0_pay4 (F := Ideal) x0 x1 x9 (ix3 u p c) = attnK (qrowB x0 p) (krowsB x1) (mrowB x9 p) c := by
  unfold k0_pay4
  rw [shapeCast_ab_1ab_apply]
  exact pay3_at x0 x1 x9 p c

/-- The stored block of outputs, at (0, p, d): the weights of row `p` times the value rows. -/
theorem pay1_at (x0 : FVec Ideal S1x256x64 .f32) (x1 x2 : FVec Ideal S1x2048x64 .f32) (x9 : IVec S256x2048 32) (u : Fin 1) (p : Fin 256) (d : Fin 64) :
    k0_pay1 (F := Ideal) (k0_pay2 x2) (k0_pay5 x0 x1 x9) (ix3 u p d) = outK (qrowB x0 p) (krowsB x1) (mrowB x9 p) (krowsB x2) d := by
  unfold k0_pay1
  rw [shapeCast_ab_1ab_apply, pv_apply]
  unfold outK
  refine Finset.sum_congr rfl fun c _ => ?_
  show k0_pay3 (F := Ideal) x0 x1 x9 (ix2 p c) * shapeCast S2048x64 x2 shapeCasts_S1x2048x64_S2048x64 (ix2 c d) = _
  rw [pay3_at, shapeCast_1ab_ab_apply]
  rfl

end Cert.KernelIdeal.Body

end
-- ==== Proof.KernelArrays.lean ====
/-
  From the grid's points to the two result arrays. Point (bh, qi) of the 32 × 8 grid reads rows 256·qi … 256·qi+255
  of q[bh], all of k[bh] and v[bh], and the same rows of the mask; it writes back block (bh, qi) of each result.
  The blocks tile both results, so each result array ends holding, at every index, the attention row of its batch-head
  and query position; the two reshapes around the call only regroup the leading axes.
-/
import proofs.«426068_j87978110091695_3_alg».proof.Proof.Gen.KernelIdeal.Frame
import proofs.«426068_j87978110091695_3_alg».proof.Proof.KernelPieces
import proofs.«426068_j87978110091695_3_alg».proof.Proof.KernelBody
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem
open Idealize.ShloMosaic.Pipeline (Dat)

namespace Cert.KernelIdeal.Arrays

open Cert.KernelIdeal Cert.KernelIdeal.Gen Idealize.ShloMosaic.ValueIdx Cert.AttnRow Cert.KernelIdeal.Body

variable (m : (ℓ : Loc nD τ sig) → Buf (Elt Ideal) ℓ) (ρ : Dev nD → PrngReg)

/-- The weights over the flattened batch-head axis: at (bh, r, c) the attention row of q[bh, r], k[bh], mask[r]. -/
def W3 (q3 k3 : FVec Ideal S32x2048x64 .f32) (m2 : IVec S2048x2048 32) : S32x2048x2048.Idx → EReal := fun i =>
  attnK (fun d => q3 (ix3 (i 0) (i 1) d)) (fun c d => k3 (ix3 (i 0) c d)) (fun c => m2 (ix2 (i 1) c)) (i 2)

/-- The output over the flattened batch-head axis. -/
def O3 (q3 k3 v3 : FVec Ideal S32x2048x64 .f32) (m2 : IVec S2048x2048 32) : S32x2048x64.Idx → EReal := fun i =>
  outK (fun d => q3 (ix3 (i 0) (i 1) d)) (fun c d => k3 (ix3 (i 0) c d)) (fun c => m2 (ix2 (i 1) c))
    (fun c d => v3 (ix3 (i 0) c d)) (i 2)

/-! ## Where a point's blocks lie -/

/-- The printed index maps over the grid: point `t` is batch-head `t / 8`, query tile `t % 8`. -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 2) = 0 ∧ win0_3.index t (1 : Fin 2) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0
    ∧ k0_off1 (grid0.coords t) (0 : Fin 2) = 256 * (t.val % 8) ∧ k0_off1 (grid0.coords t) (1 : Fin 2) = 0 :=
  (by decide +kernel : ∀ t : Fin grid0.N, _)

/-- The blocks a point loads, at their literal types. -/
abbrev qblk (c : Dev nD) (t : Fin cfg0.N) : FVec Ideal S1x256x64 .f32 := iblk m c 0 t
abbrev kblk (c : Dev nD) (t : Fin cfg0.N) : FVec Ideal S1x2048x64 .f32 := iblk m c 1 t
abbrev vblk (c : Dev nD) (t : Fin cfg0.N) : FVec Ideal S1x2048x64 .f32 := iblk m c 2 t
abbrev mblk (c : Dev nD) (t : Fin cfg0.N) : IVec S2048x2048 32 := iblk m c 3 t

/-- The arrays the region finds, at their literal types. -/
abbrev qarr (c : Dev nD) : FVec Ideal S32x2048x64 .f32 := V m c main_v0
abbrev karr (c : Dev nD) : FVec Ideal S32x2048x64 .f32 := V m c main_v1
abbrev varr (c : Dev nD) : FVec Ideal S32x2048x64 .f32 := V m c main_v2
abbrev marr (c : Dev nD) : IVec S2048x2048 32 := V m c main_v3

theorem qblk_at (c : Dev nD) (t : Fin cfg0.N) (y : S1x256x64.Idx) (i : S32x2048x64.Idx)
    (h0 : (i 0).val = t.val / 8) (h1 : (i 1).val = 256 * (t.val % 8) + (y 1).val) (h2 : (i 2).val = (y 2).val) :
    qblk m c t y = qarr m c i := by
  obtain ⟨e0, e1, e2, -⟩ := idx_facts t
  show V m c main_v0 (((cfg0.win 0).blk t).view.emb y) = V m c main_v0 i
  refine congrArg (V m c main_v0) (funext fun a => Fin.ext ?_)
  have hy0 : (y 0).val < 1 := (y 0).isLt
  match a with
  | ⟨0, _⟩ => show win0_0.index t (0 : Fin 3) * 1 + 1 * (y 0).val = (i 0).val; omega
  | ⟨1, _⟩ => show win0_0.index t (1 : Fin 3) * 256 + 1 * (y 1).val = (i 1).val; omega
  | ⟨2, _⟩ => show win0_0.index t (2 : Fin 3) * 64 + 1 * (y 2).val = (i 2).val; omega

theorem kblk_at (c : Dev nD) (t : Fin cfg0.N) (y : S1x2048x64.Idx) (i : S32x2048x64.Idx)
    (h0 : (i 0).val = t.val / 8) (h1 : (i 1).val = (y 1).val) (h2 : (i 2).val = (y 2).val) :
    kblk m c t y = karr m c i := by
  obtain ⟨-, -, -, e0, e1, e2, -⟩ := idx_facts t
  show V m c main_v1 (((cfg0.win 1).blk t).view.emb y) = V m c main_v1 i
  refine congrArg (V m c main_v1) (funext fun a => Fin.ext ?_)
  have hy0 : (y 0).val < 1 := (y 0).isLt
  match a with
  | ⟨0, _⟩ => show win0_1.index t (0 : Fin 3) * 1 + 1 * (y 0).val = (i 0).val; omega
  | ⟨1, _⟩ => show win0_1.index t (1 : Fin 3) * 2048 + 1 * (y 1).val = (i 1).val; omega
  | ⟨2, _⟩ => show win0_1.index t (2 : Fin 3) * 64 + 1 * (y 2).val = (i 2).val; omega

theorem vblk_at (c : Dev nD) (t : Fin cfg0.N) (y : S1x2048x64.Idx) (i : S32x2048x64.Idx)
    (h0 : (i 0).val = t.val / 8) (h1 : (i 1).val = (y 1).val) (h2 : (i 2).val = (y 2).val) :
    vblk m c t y = varr m c i := by
  obtain ⟨-, -, -, -, -, -, e0, e1, e2, -⟩ := idx_facts t
  show V m c main_v2 (((cfg0.win 2).blk t).view.emb y) = V m c main_v2 i
  refine congrArg (V m c main_v2) (funext fun a => Fin.ext ?_)
  have hy0 : (y 0).val < 1 := (y 0).isLt
  match a with
  | ⟨0, _⟩ => show win0_2.index t (0 : Fin 3) * 1 + 1 * (y 0).val = (i 0).val; omega
  | ⟨1, _⟩ => show win0_2.index t (1 : Fin 3) * 2048 + 1 * (y 1).val = (i 1).val; omega
  | ⟨2, _⟩ => show win0_2.index t (2 : Fin 3) * 64 + 1 * (y 2).val = (i 2).val; omega

theorem mblk_at (c : Dev nD) (t : Fin cfg0.N) (y : S2048x2048.Idx) : mblk m c t y = marr m c y := by
  obtain ⟨-, -, -, -, -, -, -, -, -, e0, e1, -⟩ := idx_facts t
  show V m c main_v3 (((cfg0.win 3).blk t).view.emb y) = V m c main_v3 y
  refine congrArg (V m c main_v3) (funext fun a => Fin.ext ?_)
  match a with
  | ⟨0, _⟩ => show win0_3.index t (0 : Fin 2) * 2048 + 1 * (y 0).val = (y 0).val; omega
  | ⟨1, _⟩ => show win0_3.index t (1 : Fin 2) * 2048 + 1 * (y 1).val = (y 1).val; omega

/-! ## What a point writes back -/

/-- The three rows the body's payloads are stated over, read off the arrays. -/
theorem rows_of_point (c : Dev nD) (t : Fin cfg0.N) (p : Fin 256) (r : Fin 2048) (b : Fin 32)
    (off : Fin 2 → Nat) (inb : ∀ a, off a + S256x2048.size a ≤ S2048x2048.size a)
    (hb : b.val = t.val / 8) (hr : r.val = 256 * (t.val % 8) + p.val) (ho0 : off 0 = 256 * (t.val % 8)) (ho1 : off 1 = 0) :
    qrowB (qblk m c t) p = (fun d => qarr m c (ix3 b r d))
    ∧ krowsB (kblk m c t) = (fun k d => karr m c (ix3 b k d))
    ∧ krowsB (vblk m c t) = (fun k d => varr m c (ix3 b k d))
    ∧ mrowB (View.ld (Val := Elt Ideal) (e' := EltTy.i32) (mblk m c t) (Rect.unit (s := S2048x2048) off S256x2048.size inb)) p = (fun k => marr m c (ix2 r k)) := by
  refine ⟨funext fun d => ?_, funext fun k => funext fun d => ?_, funext fun k => funext fun d => ?_, funext fun k => ?_⟩
  · exact qblk_at m c t (ix3 (0 : Fin 1) p d) (ix3 b r d) hb hr rfl
  · exact kblk_at m c t (ix3 (0 : Fin 1) k d) (ix3 b k d) hb rfl rfl
  · exact vblk_at m c t (ix3 (0 : Fin 1) k d) (ix3 b k d) hb rfl rfl
  · show mblk m c t ((Rect.unit (s := S2048x2048) off S256x2048.size inb).idx (ix2 p k)) = marr m c (ix2 r k)
    rw [mblk_at]
    refine congrArg (marr m c) (funext fun a => Fin.ext ?_)
    match a with
    | ⟨0, _⟩ => show off 0 + 1 * p.val = r.val; omega
    | ⟨1, _⟩ => show off 1 + 1 * k.val = k.val; omega

theorem flushed5_eq (c : Dev nD) (t : Fin cfg0.N) :
    (dats m 0 c).flushed 5 t = ((cfg0.win 5).blk t).view.read (Elt Ideal) (W3 (qarr m c) (karr m c) (marr m c)) := by
  show (cfg0.win 5).cut (grid0.coords t) ((dats m 0 c).after 5 t) = _
  rw [after0_5]
  unfold outsAt0
  dsimp only
  rw [Pieces.weights_piece]
  obtain ⟨-, -, -, -, -, -, -, -, -, -, -, -, -, -, e0, e1, e2, o0, o1⟩ := idx_facts t
  funext y
  have hN : cfg0.N = 256 := N_0
  have ht : t.val < 256 := hN ▸ t.isLt
  have hy0 : (y 0).val < 1 := (y 0).isLt
  have hy1 : (y 1).val < 256 := (y 1).isLt
  have hy2 : (y 2).val < 2048 := (y 2).isLt
  show k0_pay4 (F := Ideal) (qblk m c t) (kblk m c t) (View.ld (Val := Elt Ideal) (e' := EltTy.i32) (mblk m c t) (Rect.unit (s := S2048x2048) (k0_off1 (grid0.coords t)) S256x2048.size (k0_off1_inb (grid0.coords t))))
      (ix3 (⟨(y 0).val, hy0⟩ : Fin 1) (⟨(y 1).val, hy1⟩ : Fin 256) (⟨(y 2).val, hy2⟩ : Fin 2048))
    = W3 (qarr m c) (karr m c) (marr m c) (((cfg0.win 5).blk t).view.emb y)
  rw [pay4_at]
  obtain ⟨r1, r2, -, r4⟩ := rows_of_point m c t ⟨(y 1).val, hy1⟩ ⟨256 * (t.val % 8) + (y 1).val, by omega⟩ ⟨t.val / 8, by omega⟩
    (k0_off1 (grid0.coords t)) (k0_off1_inb (grid0.coords t)) rfl rfl o0 o1
  rw [r1, r2, r4]
  unfold W3
  have a0 : (((cfg0.win 5).blk t).view.emb y) 0 = (⟨t.val / 8, by omega⟩ : Fin 32) := Fin.ext (by
    show win0_5.index t (0 : Fin 3) * 1 + 1 * (y 0).val = t.val / 8; omega)
  have a1 : (((cfg0.win 5).blk t).view.emb y) 1 = (⟨256 * (t.val % 8) + (y 1).val, by omega⟩ : Fin 2048) := Fin.ext (by
    show win0_5.index t (1 : Fin 3) * 256 + 1 * (y 1).val = 256 * (t.val % 8) + (y 1).val; omega)
  have a2 : (((cfg0.win 5).blk t).view.emb y) 2 = (⟨(y 2).val, hy2⟩ : Fin 2048) := Fin.ext (by
    show win0_5.index t (2 : Fin 3) * 2048 + 1 * (y 2).val = (y 2).val; omega)
  rw [a0, a1, a2]

theorem flushed4_eq (c : Dev nD) (t : Fin cfg0.N) :
    (dats m 0 c).flushed 4 t = ((cfg0.win 4).blk t).view.read (Elt Ideal) (O3 (qarr m c) (karr m c) (varr m c) (marr m c)) := by
  show (cfg0.win 4).cut (grid0.coords t) ((dats m 0 c).after 4 t) = _
  rw [after0_4]
  unfold outsAt0
  dsimp only
  rw [Pieces.output_piece]
  obtain ⟨-, -, -, -, -, -, -, -, -, -, -, e0, e1, e2, -, -, -, o0, o1⟩ := idx_facts t
  funext y
  have hN : cfg0.N = 256 := N_0
  have ht : t.val < 256 := hN ▸ t.isLt
  have hy0 : (y 0).val < 1 := (y 0).isLt
  have hy1 : (y 1).val < 256 := (y 1).isLt
  have hy2 : (y 2).val < 64 := (y 2).isLt
  show k0_pay1 (F := Ideal) (k0_pay2 (vblk m c t)) (k0_pay5 (qblk m c t) (kblk m c t) (View.ld (Val := Elt Ideal) (e' := EltTy.i32) (mblk m c t) (Rect.unit (s := S2048x2048) (k0_off1 (grid0.coords t)) S256x2048.size (k0_off1_inb (grid0.coords t)))))
      (ix3 (⟨(y 0).val, hy0⟩ : Fin 1) (⟨(y 1).val, hy1⟩ : Fin 256) (⟨(y 2).val, hy2⟩ : Fin 64))
    = O3 (qarr m c) (karr m c) (varr m c) (marr m c) (((cfg0.win 4).blk t).view.emb y)
  rw [pay1_at]
  obtain ⟨r1, r2, r3, r4⟩ := rows_of_point m c t ⟨(y 1).val, hy1⟩ ⟨256 * (t.val % 8) + (y 1).val, by omega⟩ ⟨t.val / 8, by omega⟩
    (k0_off1 (grid0.coords t)) (k0_off1_inb (grid0.coords t)) rfl rfl o0 o1
  rw [r1, r2, r3, r4]
  unfold O3
  have a0 : (((cfg0.win 4).blk t).view.emb y) 0 = (⟨t.val / 8, by omega⟩ : Fin 32) := Fin.ext (by
    show win0_4.index t (0 : Fin 3) * 1 + 1 * (y 0).val = t.val / 8; omega)
  have a1 : (((cfg0.win 4).blk t).view.emb y) 1 = (⟨256 * (t.val % 8) + (y 1).val, by omega⟩ : Fin 2048) := Fin.ext (by
    show win0_4.index t (1 : Fin 3) * 256 + 1 * (y 1).val = 256 * (t.val % 8) + (y 1).val; omega)
  have a2 : (((cfg0.win 4).blk t).view.emb y) 2 = (⟨(y 2).val, hy2⟩ : Fin 64) := Fin.ext (by
    show win0_4.index t (2 : Fin 3) * 64 + 1 * (y 2).val = (y 2).val; omega)
  rw [a0, a1, a2]

/-! ## The blocks tile the results -/

theorem mem_blk5 (t : Fin cfg0.N) (i : S32x2048x2048.Idx) :
    i ∈ ((cfg0.win 5).blk t).view.set ↔ ∀ a : Fin 3, win0_5.index t a * S1x256x2048.size a ≤ (i a).val ∧ (i a).val < win0_5.index t a * S1x256x2048.size a + S1x256x2048.size a := by
  show i ∈ ((View.whole main_v4_1).slice (win0_5.rect t)).set ↔ _
  rw [View.set_slice_whole, Rect.mem_set_unit]
  exact Iff.rfl

theorem mem_blk4 (t : Fin cfg0.N) (i : S32x2048x64.Idx) :
    i ∈ ((cfg0.win 4).blk t).view.set ↔ ∀ a : Fin 3, win0_4.index t a * S1x256x64.size a ≤ (i a).val ∧ (i a).val < win0_4.index t a * S1x256x64.size a + S1x256x64.size a := by
  show i ∈ ((View.whole main_v4_0).slice (win0_4.rect t)).set ↔ _
  rw [View.set_slice_whole, Rect.mem_set_unit]
  exact Iff.rfl

/-- Index (bh, r, c) of the weights lies in the block of point 8·bh + r / 256. -/
theorem cover5 (i : S32x2048x2048.Idx) : ∃ t : Fin cfg0.N, (cfg0.win 5).flush t = true ∧ i ∈ ((cfg0.win 5).blk t).view.set := by
  have hN : cfg0.N = 256 := N_0
  have h0 : (i 0).val < 32 := (i 0).isLt
  have h1 : (i 1).val < 2048 := (i 1).isLt
  have h2 : (i 2).val < 2048 := (i 2).isLt
  refine ⟨⟨(i 0).val * 8 + (i 1).val / 256, by rw [hN]; omega⟩, flush0_5 _, ?_⟩
  obtain ⟨-, -, -, -, -, -, -, -, -, -, -, -, -, -, e0, e1, e2, -, -⟩ := idx_facts ⟨(i 0).val * 8 + (i 1).val / 256, by rw [hN]; omega⟩
  rw [mem_blk5]
  intro a
  match a with
  | ⟨0, _⟩ => show win0_5.index _ (0 : Fin 3) * 1 ≤ (i 0).val ∧ (i 0).val < win0_5.index _ (0 : Fin 3) * 1 + 1; dsimp only at e0; omega
  | ⟨1, _⟩ => show win0_5.index _ (1 : Fin 3) * 256 ≤ (i 1).val ∧ (i 1).val < win0_5.index _ (1 : Fin 3) * 256 + 256; dsimp only at e1; omega
  | ⟨2, _⟩ => show win0_5.index _ (2 : Fin 3) * 2048 ≤ (i 2).val ∧ (i 2).val < win0_5.index _ (2 : Fin 3) * 2048 + 2048; dsimp only at e2; omega

theorem cover4 (i : S32x2048x64.Idx) : ∃ t : Fin cfg0.N, (cfg0.win 4).flush t = true ∧ i ∈ ((cfg0.win 4).blk t).view.set := by
  have hN : cfg0.N = 256 := N_0
  have h0 : (i 0).val < 32 := (i 0).isLt
  have h1 : (i 1).val < 2048 := (i 1).isLt
  have h2 : (i 2).val < 64 := (i 2).isLt
  refine ⟨⟨(i 0).val * 8 + (i 1).val / 256, by rw [hN]; omega⟩, flush0_4 _, ?_⟩
  obtain ⟨-, -, -, -, -, -, -, -, -, -, -, e0, e1, e2, -⟩ := idx_facts ⟨(i 0).val * 8 + (i 1).val / 256, by rw [hN]; omega⟩
  rw [mem_blk4]
  intro a
  match a with
  | ⟨0, _⟩ => show win0_4.index _ (0 : Fin 3) * 1 ≤ (i 0).val ∧ (i 0).val < win0_4.index _ (0 : Fin 3) * 1 + 1; dsimp only at e0; omega
  | ⟨1, _⟩ => show win0_4.index _ (1 : Fin 3) * 256 ≤ (i 1).val ∧ (i 1).val < win0_4.index _ (1 : Fin 3) * 256 + 256; dsimp only at e1; omega
  | ⟨2, _⟩ => show win0_4.index _ (2 : Fin 3) * 64 ≤ (i 2).val ∧ (i 2).val < win0_4.index _ (2 : Fin 3) * 64 + 64; dsimp only at e2; omega

/-- So the two result arrays of the call end holding the weights and the output. -/
theorem final5 (c : Dev nD) : (dats m 0 c).arrAt 5 cfg0.N = W3 (qarr m c) (karr m c) (marr m c) :=
  (dats m 0 c).arrAt_eq_of_cover 5 (W3 (qarr m c) (karr m c) (marr m c)) (fun t _ => flushed5_eq m c t) cover5

theorem final4 (c : Dev nD) : (dats m 0 c).arrAt 4 cfg0.N = O3 (qarr m c) (karr m c) (varr m c) (marr m c) :=
  (dats m 0 c).arrAt_eq_of_cover 4 (O3 (qarr m c) (karr m c) (varr m c) (marr m c)) (fun t _ => flushed4_eq m c t) cover4

/-! ## The reshapes around the call -/

theorem qarr_eq (c : Dev nD) : qarr m c = shapeCast S32x2048x64 (m ((c : Thread nD τ).loc main_arg0)) shapeCasts_S2x16x2048x64_S32x2048x64 := by
  show StableHlo.after hostOps0 (fun b => m (c, b)) (Proc.devRef .tc main_v0) = _
  after_results
  rfl

theorem karr_eq (c : Dev nD) : karr m c = shapeCast S32x2048x64 (m ((c : Thread nD τ).loc main_arg1)) shapeCasts_S2x16x2048x64_S32x2048x64 := by
  show StableHlo.after hostOps0 (fun b => m (c, b)) (Proc.devRef .tc main_v1) = _
  after_results
  rfl

theorem varr_eq (c : Dev nD) : varr m c = shapeCast S32x2048x64 (m ((c : Thread nD τ).loc main_arg2)) shapeCasts_S2x16x2048x64_S32x2048x64 := by
  show StableHlo.after hostOps0 (fun b => m (c, b)) (Proc.devRef .tc main_v2) = _
  after_results
  rfl

theorem marr_eq (c : Dev nD) : marr m c = shapeCast S2048x2048 (m ((c : Thread nD τ).loc main_arg3)) shapeCasts_S1x1x2048x2048_S2048x2048 := by
  show StableHlo.after hostOps0 (fun b => m (c, b)) (Proc.devRef .tc main_v3) = _
  after_results
  rfl

/-- The call's second result array as the lines after the call find it. -/
theorem with5 (c : Dev nD) :
    Pipeline.withArrays (cfgs 0).spec c (V0 m c) (fun w => (dats m 0 c).arrAt w (cfgs 0).N) (Proc.devRef .tc main_v4_1)
      = W3 (qarr m c) (karr m c) (marr m c) :=
  (Pipeline.withArrays_arr spec0 launch0.win.arr_inj c _ _ 5).trans (final5 m c)

theorem with4 (c : Dev nD) :
    Pipeline.withArrays (cfgs 0).spec c (V0 m c) (fun w => (dats m 0 c).arrAt w (cfgs 0).N) (Proc.devRef .tc main_v4_0)
      = O3 (qarr m c) (karr m c) (varr m c) (marr m c) :=
  (Pipeline.withArrays_arr spec0 launch0.win.arr_inj c _ _ 4).trans (final4 m c)

theorem tail6 (c : Dev nD) : Pipeline.afterTail₀ cfgs (dats m) 0 (V0 m) [hostOps1] c main_v6
    = shapeCast S2x16x2048x2048 (W3 (qarr m c) (karr m c) (marr m c)) shapeCasts_S32x2048x2048_S2x16x2048x2048 := by
  unfold Pipeline.afterTail₀
  show StableHlo.after hostOps1 _ (Proc.devRef .tc main_v6) = _
  after_results
  rw [with5]
  rfl

theorem tail5 (c : Dev nD) : Pipeline.afterTail₀ cfgs (dats m) 0 (V0 m) [hostOps1] c main_v5
    = shapeCast S2x16x2048x64 (O3 (qarr m c) (karr m c) (varr m c) (marr m c)) shapeCasts_S32x2048x64_S2x16x2048x64 := by
  unfold Pipeline.afterTail₀
  show StableHlo.after hostOps1 _ (Proc.devRef .tc main_v5) = _
  after_results
  rw [with4]
  rfl

/-! ## The run, read -/

/-- The frame run re-posted: the two results at the regrouped weights and output, the arguments unchanged. -/
theorem run : θ_run defs (onTc (τ := τ) (main (F := Ideal))) ⟨m, fun _ => 0, ρ⟩ fun r => ∀ c : Dev nD,
      r.2.mem ((c.tc : Thread nD τ).loc main_v5) = shapeCast S2x16x2048x64 (O3 (qarr m c) (karr m c) (varr m c) (marr m c)) shapeCasts_S32x2048x64_S2x16x2048x64
      ∧ r.2.mem ((c.tc : Thread nD τ).loc main_v6) = shapeCast S2x16x2048x2048 (W3 (qarr m c) (karr m c) (marr m c)) shapeCasts_S32x2048x2048_S2x16x2048x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v5 (Pipeline.mem_restRefs_of main_v5 (by decide) (by decide))).trans (tail5 m c),
     ((h c).2 main_v6 (Pipeline.mem_restRefs_of main_v6 (by decide) (by decide))).trans (tail6 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Arrays

end
-- ==== Proof.AttnSpec.lean ====
/-
  Masked softmax attention over whole arrays: for batch `b`, head `h` and query position `r`, the weights over the
  2048 key positions are one attention row (module AttnRow) of the query row q[b,h,r,:], the key rows k[b,h,:,:] and
  the mask row mask[0,0,r,:]; the output row is the weights times the value rows v[b,h,:,:]. Both spellings of the
  row are lifted, and on finite q and k they agree.
-/
import proofs.«426068_j87978110091695_3_alg».proof.Proof.AttnRow
import Idealize.ShloMosaic.Lib.ValueIdx

noncomputable section

namespace Cert.AttnSpec

open Idealize.ShloMosaic Idealize.ShloMosaic.ValueIdx Cert.AttnRow

/-- The shapes of q, k, v and the output; of the mask; of the weights. -/
abbrev Sqkv : Shape := ⟨4, ![2, 16, 2048, 64]⟩
abbrev Smask : Shape := ⟨4, ![1, 1, 2048, 2048]⟩
abbrev Sattn : Shape := ⟨4, ![2, 16, 2048, 2048]⟩

/-- The query row, the key (or value) rows and the mask row an index selects. -/
def qrow (x : Sqkv.Idx → EReal) (b : Fin 2) (h : Fin 16) (r : Fin 2048) : Fin 64 → EReal :=
  fun d => x (ix4 b h r d)
def krows (x : Sqkv.Idx → EReal) (b : Fin 2) (h : Fin 16) : Fin 2048 → Fin 64 → EReal :=
  fun c d => x (ix4 b h c d)
def mrow (x : Smask.Idx → BitVec 32) (r : Fin 2048) : Fin 2048 → BitVec 32 :=
  fun c => x (ix4 (0 : Fin 1) (0 : Fin 1) r c)

/-- The attention weights of every row, first spelling. -/
def weightsK (x0 x1 : Sqkv.Idx → EReal) (x3 : Smask.Idx → BitVec 32) : Sattn.Idx → EReal := fun i =>
  attnK (qrow x0 (i 0) (i 1) (i 2)) (krows x1 (i 0) (i 1)) (mrow x3 (i 2)) (i 3)

/-- The attention weights of every row, second spelling. -/
def weightsR (x0 x1 : Sqkv.Idx → EReal) (x3 : Smask.Idx → BitVec 32) : Sattn.Idx → EReal := fun i =>
  attnR (qrow x0 (i 0) (i 1) (i 2)) (krows x1 (i 0) (i 1)) (mrow x3 (i 2)) (i 3)

/-- The attention output, first spelling. -/
def outputK (x0 x1 x2 : Sqkv.Idx → EReal) (x3 : Smask.Idx → BitVec 32) : Sqkv.Idx → EReal := fun i =>
  outK (qrow x0 (i 0) (i 1) (i 2)) (krows x1 (i 0) (i 1)) (mrow x3 (i 2)) (krows x2 (i 0) (i 1)) (i 3)

/-- The attention output, second spelling. -/
def outputR (x0 x1 x2 : Sqkv.Idx → EReal) (x3 : Smask.Idx → BitVec 32) : Sqkv.Idx → EReal := fun i =>
  outR (qrow x0 (i 0) (i 1) (i 2)) (krows x1 (i 0) (i 1)) (mrow x3 (i 2)) (krows x2 (i 0) (i 1)) (i 3)

theorem weightsR_eq (x0 x1 : Sqkv.Idx → EReal) (x3 : Smask.Idx → BitVec 32)
    (h0 : ∀ i, IsReal (x0 i)) (h1 : ∀ i, IsReal (x1 i)) : weightsR x0 x1 x3 = weightsK x0 x1 x3 :=
  funext fun i => attnR_eq_attnK _ _ _ (fun _ => h0 _) (fun _ _ => h1 _) _

theorem outputR_eq (x0 x1 x2 : Sqkv.Idx → EReal) (x3 : Smask.Idx → BitVec 32)
    (h0 : ∀ i, IsReal (x0 i)) (h1 : ∀ i, IsReal (x1 i)) : outputR x0 x1 x2 x3 = outputK x0 x1 x2 x3 :=
  funext fun i => outR_eq_outK _ _ _ _ (fun _ => h0 _) (fun _ _ => h1 _) _

end Cert.AttnSpec

end
-- ==== Proof.KernelIsSpec.lean ====
/-
  Regrouping. The call works on q, k, v with batch and head flattened to one axis of 32 and on the mask with its two
  unit axes dropped; its results are reshaped back to [2, 16, …]. A reshape keeps an element's row-major position,
  and 16·b + h is the flattened position of (b, h): so the regrouped weights and output are the weights and the
  output of masked softmax attention over the four-axis arrays (module AttnSpec, first spelling).
-/
import proofs.«426068_j87978110091695_3_alg».proof.Proof.KernelArrays
import proofs.«426068_j87978110091695_3_alg».proof.Proof.AttnSpec

noncomputable section

namespace Cert.KernelIdeal.IsSpec

open Idealize.ShloMosaic Idealize.ShloMosaic.ValueIdx Cert.KernelIdeal Cert.KernelIdeal.Gen Cert.AttnRow Cert.AttnSpec
  Cert.KernelIdeal.Arrays

/-- The flattened batch-head index of (b, h). -/
abbrev flat (b : Fin 2) (h : Fin 16) : Fin 32 := ⟨16 * b.val + h.val, by omega⟩

theorem flatten_qkv (x : FVec Ideal S2x16x2048x64 .f32) (b : Fin 2) (h : Fin 16) (r : Fin 2048) (d : Fin 64) :
    shapeCast S32x2048x64 x shapeCasts_S2x16x2048x64_S32x2048x64 (ix3 (flat b h) r d) = x (ix4 b h r d) :=
  shapeCast_apply x _ _ _ (by
    rw [Shape.rowMajor_val_four, Shape.rowMajor_val_three]
    show ((b.val * 16 + h.val) * 2048 + r.val) * 64 + d.val = ((16 * b.val + h.val) * 2048 + r.val) * 64 + d.val
    omega)

theorem flatten_mask (x : IVec S1x1x2048x2048 32) (r c : Fin 2048) :
    shapeCast S2048x2048 x shapeCasts_S1x1x2048x2048_S2048x2048 (ix2 r c) = x (ix4 (0 : Fin 1) (0 : Fin 1) r c) :=
  shapeCast_apply x _ _ _ (by
    rw [Shape.rowMajor_val_four, Shape.rowMajor_val_two]
    show ((0 * 1 + 0) * 2048 + r.val) * 2048 + c.val = r.val * 2048 + c.val
    omega)

theorem regroup_weights (w : S32x2048x2048.Idx → EReal) (b : Fin 2) (h : Fin 16) (r c : Fin 2048) :
    shapeCast S2x16x2048x2048 w shapeCasts_S32x2048x2048_S2x16x2048x2048 (ix4 b h r c) = w (ix3 (flat b h) r c) :=
  shapeCast_apply w _ _ _ (by
    rw [Shape.rowMajor_val_four, Shape.rowMajor_val_three]
    show ((16 * b.val + h.val) * 2048 + r.val) * 2048 + c.val = ((b.val * 16 + h.val) * 2048 + r.val) * 2048 + c.val
    omega)

theorem regroup_output (o : S32x2048x64.Idx → EReal) (b : Fin 2) (h : Fin 16) (r : Fin 2048) (d : Fin 64) :
    shapeCast S2x16x2048x64 o shapeCasts_S32x2048x64_S2x16x2048x64 (ix4 b h r d) = o (ix3 (flat b h) r d) :=
  shapeCast_apply o _ _ _ (by
    rw [Shape.rowMajor_val_four, Shape.rowMajor_val_three]
    show ((16 * b.val + h.val) * 2048 + r.val) * 64 + d.val = ((b.val * 16 + h.val) * 2048 + r.val) * 64 + d.val
    omega)

/-- The rows the flattened arrays give at (16·b + h, r) are the rows of the four-axis arrays at (b, h, r). -/
theorem rows_flat (x0 x1 x2 : FVec Ideal S2x16x2048x64 .f32) (x3 : IVec S1x1x2048x2048 32) (b : Fin 2) (h : Fin 16) (r : Fin 2048) :
    (fun d => shapeCast S32x2048x64 x0 shapeCasts_S2x16x2048x64_S32x2048x64 (ix3 (flat b h) r d)) = qrow x0 b h r
    ∧ (fun k d => shapeCast S32x2048x64 x1 shapeCasts_S2x16x2048x64_S32x2048x64 (ix3 (flat b h) k d)) = krows x1 b h
    ∧ (fun k d => shapeCast S32x2048x64 x2 shapeCasts_S2x16x2048x64_S32x2048x64 (ix3 (flat b h) k d)) = krows x2 b h
    ∧ (fun k => shapeCast S2048x2048 x3 shapeCasts_S1x1x2048x2048_S2048x2048 (ix2 r k)) = mrow x3 r :=
  ⟨funext fun d => flatten_qkv x0 b h r d, funext fun k => funext fun d => flatten_qkv x1 b h k d,
    funext fun k => funext fun d => flatten_qkv x2 b h k d, funext fun k => flatten_mask x3 r k⟩

/-- The regrouped weights are the attention weights. -/
theorem weights_eq (x0 x1 : FVec Ideal S2x16x2048x64 .f32) (x3 : IVec S1x1x2048x2048 32) :
    shapeCast S2x16x2048x2048
        (W3 (shapeCast S32x2048x64 x0 shapeCasts_S2x16x2048x64_S32x2048x64) (shapeCast S32x2048x64 x1 shapeCasts_S2x16x2048x64_S32x2048x64)
          (shapeCast S2048x2048 x3 shapeCasts_S1x1x2048x2048_S2048x2048))
        shapeCasts_S32x2048x2048_S2x16x2048x2048
      = weightsK x0 x1 x3 := by
  funext i
  obtain ⟨b, h, r, c, rfl⟩ : ∃ (b : Fin 2) (h : Fin 16) (r : Fin 2048) (c : Fin 2048), i = ix4 b h r c := ⟨i 0, i 1, i 2, i 3, eq_ix4 i⟩
  rw [regroup_weights]
  obtain ⟨e0, e1, -, e3⟩ := rows_flat x0 x1 x1 x3 b h r
  show attnK (fun d => shapeCast S32x2048x64 x0 shapeCasts_S2x16x2048x64_S32x2048x64 (ix3 (flat b h) r d))
      (fun k d => shapeCast S32x2048x64 x1 shapeCasts_S2x16x2048x64_S32x2048x64 (ix3 (flat b h) k d))
      (fun k => shapeCast S2048x2048 x3 shapeCasts_S1x1x2048x2048_S2048x2048 (ix2 r k)) c
    = attnK (qrow x0 b h r) (krows x1 b h) (mrow x3 r) c
  rw [e0, e1, e3]

/-- The regrouped output is the attention output. -/
theorem output_eq (x0 x1 x2 : FVec Ideal S2x16x2048x64 .f32) (x3 : IVec S1x1x2048x2048 32) :
    shapeCast S2x16x2048x64
        (O3 (shapeCast S32x2048x64 x0 shapeCasts_S2x16x2048x64_S32x2048x64) (shapeCast S32x2048x64 x1 shapeCasts_S2x16x2048x64_S32x2048x64)
          (shapeCast S32x2048x64 x2 shapeCasts_S2x16x2048x64_S32x2048x64) (shapeCast S2048x2048 x3 shapeCasts_S1x1x2048x2048_S2048x2048))
        shapeCasts_S32x2048x64_S2x16x2048x64
      = outputK x0 x1 x2 x3 := by
  funext i
  obtain ⟨b, h, r, d, rfl⟩ : ∃ (b : Fin 2) (h : Fin 16) (r : Fin 2048) (d : Fin 64), i = ix4 b h r d := ⟨i 0, i 1, i 2, i 3, eq_ix4 i⟩
  rw [regroup_output]
  obtain ⟨e0, e1, e2, e3⟩ := rows_flat x0 x1 x2 x3 b h r
  show outK (fun d => shapeCast S32x2048x64 x0 shapeCasts_S2x16x2048x64_S32x2048x64 (ix3 (flat b h) r d))
      (fun k d => shapeCast S32x2048x64 x1 shapeCasts_S2x16x2048x64_S32x2048x64 (ix3 (flat b h) k d))
      (fun k => shapeCast S2048x2048 x3 shapeCasts_S1x1x2048x2048_S2048x2048 (ix2 r k))
      (fun k d => shapeCast S32x2048x64 x2 shapeCasts_S2x16x2048x64_S32x2048x64 (ix3 (flat b h) k d)) d
    = outK (qrow x0 b h r) (krows x1 b h) (mrow x3 r) (krows x2 b h) d
  rw [e0, e1, e2, e3]

/-- The kernel's run: the two results at the attention output and weights of the argument arrays. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = outputK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v6) = weightsK (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    obtain ⟨h5, h6, hrest⟩ := h c
    refine ⟨h5.trans ?_, h6.trans ?_, hrest⟩
    · rw [qarr_eq, karr_eq, varr_eq, marr_eq]; exact output_eq _ _ _ _
    · rw [qarr_eq, karr_eq, marr_eq]; exact weights_eq _ _ _)
    (Arrays.run m ρ)

end Cert.KernelIdeal.IsSpec

end
-- ==== Proof.RefIsSpec.lean ====
/-
  The reference program's two results, stage by stage, are the second spelling of masked softmax attention
  (module AttnSpec), index by index.
-/
import proofs.«426068_j87978110091695_3_alg».proof.Proof.Gen.ReferenceIdeal.Read
import proofs.«426068_j87978110091695_3_alg».proof.Proof.AttnSpec

noncomputable section

namespace Cert.RefIsSpec

open Idealize.ShloMosaic Idealize.ShloMosaic.ValueIdx Cert.ReferenceIdeal Cert.ReferenceIdeal.Read Cert.AttnRow Cert.AttnSpec

/-! ## The index functions of the stages, at an index given by its coordinates -/

/-- The mask is read at row `r`, column `c` of its one plane. -/
theorem idx_mask (b : Fin 2) (h : Fin 16) (r c : Fin 2048) :
    idx_main_call0_v0 (ix4 b h r c) = ix4 (0 : Fin 1) (0 : Fin 1) r c :=
  funext fun a => Fin.ext (by match a with | ⟨0, _⟩ => rfl | ⟨1, _⟩ => rfl | ⟨2, _⟩ => rfl | ⟨3, _⟩ => rfl)

/-- The first product reads the query row `r` at feature `k` … -/
theorem lidx_score (b : Fin 2) (h : Fin 16) (r c : Fin 2048) (k : Fin 64) :
    lidx_main_v2 (ix4 b h r c) k = ix4 b h r k :=
  funext fun a => Fin.ext (by match a with | ⟨0, _⟩ => rfl | ⟨1, _⟩ => rfl | ⟨2, _⟩ => rfl | ⟨3, _⟩ => rfl)

/-- … and the key row `c` at feature `k`. -/
theorem ridx_score (b : Fin 2) (h : Fin 16) (r c : Fin 2048) (k : Fin 64) :
    ridx_main_v2 (ix4 b h r c) k = ix4 b h c k :=
  funext fun a => Fin.ext (by match a with | ⟨0, _⟩ => rfl | ⟨1, _⟩ => rfl | ⟨2, _⟩ => rfl | ⟨3, _⟩ => rfl)

/-- The two broadcasts of a row statistic back over the columns read it at the row. -/
theorem idx_row_max (b : Fin 2) (h : Fin 16) (r c : Fin 2048) :
    idx_main_v11 (idx_main_v12 (ix4 b h r c)) = ix3 b h r :=
  funext fun a => Fin.ext (by match a with | ⟨0, _⟩ => rfl | ⟨1, _⟩ => rfl | ⟨2, _⟩ => rfl)

theorem idx_row_sum (b : Fin 2) (h : Fin 16) (r c : Fin 2048) :
    idx_main_v16 (idx_main_v17 (ix4 b h r c)) = ix3 b h r :=
  funext fun a => Fin.ext (by match a with | ⟨0, _⟩ => rfl | ⟨1, _⟩ => rfl | ⟨2, _⟩ => rfl)

/-- The row sum runs over the columns of the row. -/
theorem idx_sum (b : Fin 2) (h : Fin 16) (r k : Fin 2048) :
    idx_main_v15 (ix3 b h r) k = ix4 b h r k :=
  funext fun a => Fin.ext (by match a with | ⟨0, _⟩ => rfl | ⟨1, _⟩ => rfl | ⟨2, _⟩ => rfl | ⟨3, _⟩ => rfl)

/-- The second product reads the weights' row at key `k` … -/
theorem lidx_out (b : Fin 2) (h : Fin 16) (r : Fin 2048) (d : Fin 64) (k : Fin 2048) :
    lidx_main_v19 (ix4 b h r d) k = ix4 b h r k :=
  funext fun a => Fin.ext (by match a with | ⟨0, _⟩ => rfl | ⟨1, _⟩ => rfl | ⟨2, _⟩ => rfl | ⟨3, _⟩ => rfl)

/-- … and the value row `k` at the output's feature. -/
theorem ridx_out (b : Fin 2) (h : Fin 16) (r : Fin 2048) (d : Fin 64) (k : Fin 2048) :
    ridx_main_v19 (ix4 b h r d) k = ix4 b h k d :=
  funext fun a => Fin.ext (by match a with | ⟨0, _⟩ => rfl | ⟨1, _⟩ => rfl | ⟨2, _⟩ => rfl | ⟨3, _⟩ => rfl)

/-- A row index with column `k` put back on the reduced axis. -/
theorem lift_row (hR : S2x16x2048x2048.Reduces [3] S2x16x2048) (b : Fin 2) (h : Fin 16) (r : Fin 2048)
    (k : Fin (S2x16x2048x2048.size 3)) :
    hR.lift (ix3 b h r) k = ix4 b h r (⟨k.val, k.isLt⟩ : Fin 2048) := by
  funext a
  apply Fin.ext
  match a with
  | ⟨0, _⟩ => rfl
  | ⟨1, _⟩ => rfl
  | ⟨2, _⟩ => rfl
  | ⟨3, _⟩ => rfl

/-! ## The stages -/

/-- The masked, scaled score. -/
theorem score_at (x0 x1 : (⟨S2x16x2048x64, .f32⟩ : BufTy).Contents (Elt Ideal))
    (x3 : (⟨S1x1x2048x2048, .i32⟩ : BufTy).Contents (Elt Ideal)) (b : Fin 2) (h : Fin 16) (r c : Fin 2048) :
    val_main_v7 (F := Ideal) x0 x1 x3 (ix4 b h r c)
      = scoreR (qrow x0 b h r) (krows x1 b h) (mrow x3 r) c := by
  rw [val_main_v7_apply, val_main_call0_v0_apply, val_main_v6_apply, val_main_v5_apply, val_main_c_apply,
    val_main_call0_v1_apply, val_main_cst_1_apply, val_main_v4_apply, val_main_v2_apply, val_main_v3_apply,
    val_main_v1_apply, val_main_cst_0_apply, val_main_v0_apply, val_main_cst_apply, idx_mask]
  simp only [lidx_score, ridx_score]
  rfl

/-- The row maximum: the fold of the maximum from minus infinity over the row's 2048 scores. -/
theorem rowmax_at (x0 x1 : (⟨S2x16x2048x64, .f32⟩ : BufTy).Contents (Elt Ideal))
    (x3 : (⟨S1x1x2048x2048, .i32⟩ : BufTy).Contents (Elt Ideal)) (b : Fin 2) (h : Fin 16) (r : Fin 2048) :
    val_main_v8 (F := Ideal) x0 x1 x3 (ix3 b h r)
      = rowMax (scoreR (qrow x0 b h r) (krows x1 b h) (mrow x3 r)) := by
  have hR : S2x16x2048x2048.Reduces [3] S2x16x2048 := by decide
  unfold val_main_v8
  rw [Host.reduce_eq_fold_single FloatOps.maximumf _ _ _ hR]
  have hf : (val_main_v7 (F := Ideal) x0 x1 x3 ∘ hR.lift (ix3 b h r))
      = fun k : Fin 2048 => scoreR (qrow x0 b h r) (krows x1 b h) (mrow x3 r) k :=
    funext fun k => (congrArg (val_main_v7 (F := Ideal) x0 x1 x3) (lift_row hR b h r k)).trans
      (score_at x0 x1 x3 b h r ⟨k.val, k.isLt⟩)
  exact congrArg (fun f => Finset.fold max (Ideal.ofBits .f32 0xFF800000#32) f (Finset.univ : Finset (Fin 2048))) hf

/-- The maximum taken once more against minus infinity. -/
theorem max_at (x0 x1 : (⟨S2x16x2048x64, .f32⟩ : BufTy).Contents (Elt Ideal))
    (x3 : (⟨S1x1x2048x2048, .i32⟩ : BufTy).Contents (Elt Ideal)) (b : Fin 2) (h : Fin 16) (r : Fin 2048) :
    val_main_v10 (F := Ideal) x0 x1 x3 (ix3 b h r)
      = max (Ideal.ofBits .f32 0xFF800000#32) (rowMax (scoreR (qrow x0 b h r) (krows x1 b h) (mrow x3 r))) := by
  rw [val_main_v10_apply, val_main_v9_apply, val_main_cst_3_apply, rowmax_at]
  rfl

/-- The exponential of the score less the row's maximum. -/
theorem exp_at (x0 x1 : (⟨S2x16x2048x64, .f32⟩ : BufTy).Contents (Elt Ideal))
    (x3 : (⟨S1x1x2048x2048, .i32⟩ : BufTy).Contents (Elt Ideal)) (b : Fin 2) (h : Fin 16) (r c : Fin 2048) :
    val_main_v14 (F := Ideal) x0 x1 x3 (ix4 b h r c)
      = Ideal.exp (scoreR (qrow x0 b h r) (krows x1 b h) (mrow x3 r) c
          - max (Ideal.ofBits .f32 0xFF800000#32) (rowMax (scoreR (qrow x0 b h r) (krows x1 b h) (mrow x3 r)))) := by
  rw [val_main_v14_apply, val_main_v13_apply, score_at, val_main_v12_apply, val_main_v11_apply, idx_row_max, max_at]
  rfl

/-- The row's sum of exponentials, started at a zero. -/
theorem sum_at (x0 x1 : (⟨S2x16x2048x64, .f32⟩ : BufTy).Contents (Elt Ideal))
    (x3 : (⟨S1x1x2048x2048, .i32⟩ : BufTy).Contents (Elt Ideal)) (b : Fin 2) (h : Fin 16) (r : Fin 2048) :
    val_main_v15 (F := Ideal) x0 x1 x3 (ix3 b h r)
      = Ideal.ofBits .f32 0x00000000#32
        + ∑ c' : Fin 2048, Ideal.exp (scoreR (qrow x0 b h r) (krows x1 b h) (mrow x3 r) c'
            - max (Ideal.ofBits .f32 0xFF800000#32) (rowMax (scoreR (qrow x0 b h r) (krows x1 b h) (mrow x3 r)))) := by
  rw [val_main_v15_apply, val_main_cst_4_apply]
  simp only [idx_sum, exp_at]
  rfl

/-- The weights at an index given by its coordinates. -/
theorem weights_at (x0 x1 : (⟨S2x16x2048x64, .f32⟩ : BufTy).Contents (Elt Ideal))
    (x3 : (⟨S1x1x2048x2048, .i32⟩ : BufTy).Contents (Elt Ideal)) (b : Fin 2) (h : Fin 16) (r c : Fin 2048) :
    val_main_v18 (F := Ideal) x0 x1 x3 (ix4 b h r c)
      = attnR (qrow x0 b h r) (krows x1 b h) (mrow x3 r) c := by
  rw [val_main_v18_apply, exp_at, val_main_v17_apply, val_main_v16_apply, idx_row_sum, sum_at]
  rfl

/-- The reference's weights. -/
theorem ref_weights (x0 x1 : (⟨S2x16x2048x64, .f32⟩ : BufTy).Contents (Elt Ideal))
    (x3 : (⟨S1x1x2048x2048, .i32⟩ : BufTy).Contents (Elt Ideal)) :
    val_main_v18 (F := Ideal) x0 x1 x3 = weightsR x0 x1 x3 := by
  funext i
  exact (congrArg (val_main_v18 (F := Ideal) x0 x1 x3) (eq_ix4 i)).trans (weights_at x0 x1 x3 (i 0) (i 1) (i 2) (i 3))

/-- The output at an index given by its coordinates: the weights' row times the value rows, summed over the keys. -/
theorem output_at (x0 x1 x2 : (⟨S2x16x2048x64, .f32⟩ : BufTy).Contents (Elt Ideal))
    (x3 : (⟨S1x1x2048x2048, .i32⟩ : BufTy).Contents (Elt Ideal)) (b : Fin 2) (h : Fin 16) (r : Fin 2048) (d : Fin 64) :
    val_main_v19 (F := Ideal) x0 x1 x2 x3 (ix4 b h r d)
      = outR (qrow x0 b h r) (krows x1 b h) (mrow x3 r) (krows x2 b h) d := by
  rw [val_main_v19_apply]
  show _ = ∑ c : Fin 2048, attnR (qrow x0 b h r) (krows x1 b h) (mrow x3 r) c * x2 (ix4 b h c d)
  refine Finset.sum_congr rfl fun k _ => ?_
  rw [lidx_out, ridx_out, weights_at]

/-- The reference's output. -/
theorem ref_output (x0 x1 x2 : (⟨S2x16x2048x64, .f32⟩ : BufTy).Contents (Elt Ideal))
    (x3 : (⟨S1x1x2048x2048, .i32⟩ : BufTy).Contents (Elt Ideal)) :
    val_main_v19 (F := Ideal) x0 x1 x2 x3 = outputR x0 x1 x2 x3 := by
  funext i
  exact (congrArg (val_main_v19 (F := Ideal) x0 x1 x2 x3) (eq_ix4 i)).trans
    (output_at x0 x1 x2 x3 (i 0) (i 1) (i 2) (i 3))

end Cert.RefIsSpec

end
-- ==== Proof.FiniteInputs.lean ====
/-
  The precondition read back: where it holds, every entry of q, k and v is a real number.
-/
import proofs.«426068_j87978110091695_3_alg».proof.Pre_finite_inputs
import proofs.«426068_j87978110091695_3_alg».proof.Proof.AttnRow
import Idealize.ShloMosaic.PureOps.Ideal
import Idealize.ShloMosaic.Lib.ReduceAll
import Idealize.ShloMosaic.Lib.ValueIdx

noncomputable section

namespace Cert.FiniteInputs

open Idealize.ShloMosaic Cert.AttnRow

/-- The rank-0 result has exactly one index. -/
instance : Subsingleton Cert.Pre_finite_inputs.S_.Idx := ⟨fun _ _ => funext fun d => d.elim0⟩

/-- The word 0x7F800000 (sign 0, exponent all ones, fraction 0) denotes plus infinity. -/
theorem ofBits_inf : Ideal.ofBits .f32 0x7F800000#32 = (⊤ : EReal) := by
  simp [Ideal.ofBits, Ideal.ieee]

/-- An extended real whose absolute value max x (-x) lies strictly below plus infinity is a real number:
    at minus infinity and at plus infinity the absolute value is plus infinity itself. -/
theorem isReal_of_abs_lt_top (x : EReal) (h : max x (-x) < ⊤) : IsReal x := by
  induction x using EReal.rec with
  | bot => exact absurd h (by simp)
  | coe r => exact ⟨r, rfl⟩
  | top => exact absurd h (by simp)

/-- The ordered strict comparison of extended reals answers 1 only where the inequality holds. -/
theorem lt_of_cmp_olt {a b : EReal} (h : Ideal.cmp .olt a b = 1#1) : a < b := by
  by_contra hn
  simp [Ideal.cmp, hn] at h

/-- One array. If the conjunction over all indices of the tests |x i| < +inf is 1, every entry of x is real:
    a conjunction that is 1 has every conjunct 1, the test at i is the strict inequality max (x i) (-(x i)) < +inf,
    and only a real number satisfies it. -/
theorem real_of_all (x : FVec Ideal Cert.Pre_finite_inputs.S2x16x2048x64 .f32)
    (hb : Cert.Pre_finite_inputs.S_.BroadcastsInDim Cert.Pre_finite_inputs.S2x16x2048x64
      (![] : Fin 0 → Fin Cert.Pre_finite_inputs.S2x16x2048x64.rank))
    (hr : Cert.Pre_finite_inputs.S2x16x2048x64.ReducesTo [0, 1, 2, 3] Cert.Pre_finite_inputs.S_)
    (hu : 0 < Cert.Pre_finite_inputs.S_.numel) (init : IVec Cert.Pre_finite_inputs.S_ 1)
    (h : Host.reduce IntOp.andi
        (cmpf .olt (Host.absf x)
          (broadcastInDim Cert.Pre_finite_inputs.S2x16x2048x64 ![] hb
            (constant (F := Ideal) Cert.Pre_finite_inputs.S_ .f32 0x7F800000#32)))
        init hr hu ValueIdx.ix0 = 1#1) :
    ∀ i, IsReal (x i) := by
  intro i
  have e := Host.reduce_andi_all _ _ hr hu _ h i
  have e' : Ideal.cmp .olt (max (x i) (-(x i))) (Ideal.ofBits .f32 0x7F800000#32) = 1#1 := e
  rw [ofBits_inf] at e'
  exact isReal_of_abs_lt_top _ (lt_of_cmp_olt e')

theorem real_of_pre [Cert.Pre_finite_inputs.Facts]
    (a0 a1 a2 : FVec Ideal Cert.Pre_finite_inputs.S2x16x2048x64 .f32) (a3 : IVec Cert.Pre_finite_inputs.S1x1x2048x2048 32)
    (h : Cert.Pre_finite_inputs.fn (F := Ideal) a0 a1 a2 a3 = fun _ => 1#1) :
    (∀ i, IsReal (a0 i)) ∧ (∀ i, IsReal (a1 i)) ∧ (∀ i, IsReal (a2 i)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  exact ⟨real_of_all a0 _ _ _ _ h0', real_of_all a1 _ _ _ _ h1, real_of_all a2 _ _ _ _ h2⟩

end Cert.FiniteInputs

end
-- ==== Proof.lean ====
/-
  Masked softmax attention: a kernel over a 32 × 8 grid of (batch-head, query tile) points against the plain
  reference, over the extended reals.

  Both programs compute, for every batch b, head h and query position r, the weights
      softmax over c of ( mask[r, c] = 0 ? -10000 : ⟨q[b,h,r], k[b,h,c]⟩ / 8 )
  and the output  ∑ c, weights[c] · v[b,h,c].  They differ in three places: the kernel scales q by 1/8 before the
  products where the reference scales the dot product by 1 / sqrt 64 afterwards; the kernel multiplies the
  exponentials by the reciprocal of their row sum where the reference divides by it; and the kernel works on arrays
  with batch and head flattened to one axis, tile by tile. On finite q and k the first two are equalities of real
  numbers (the row sum of exponentials is a positive real), which is where the precondition is used; the third is
  bookkeeping of indices: the blocks tile the results and a reshape keeps row-major positions.

  Modules: AttnRow (one attention row, both spellings, and their equality on finite rows), AttnSpec (the rows lifted
  to the four-axis arrays), RefIsSpec (the reference is the second spelling), KernelPieces, KernelBody, KernelArrays,
  KernelIsSpec (the kernel is the first spelling), FiniteInputs (the precondition gives finiteness).
-/
import proofs.«426068_j87978110091695_3_alg».proof.Defs
import proofs.«426068_j87978110091695_3_alg».proof.Proof.Gen.Kernel
import proofs.«426068_j87978110091695_3_alg».proof.Proof.Gen.Kernel.Skeleton
import proofs.«426068_j87978110091695_3_alg».proof.Proof.Gen.Kernel.Launch
import proofs.«426068_j87978110091695_3_alg».proof.Proof.Gen.Kernel.Points
import proofs.«426068_j87978110091695_3_alg».proof.Proof.Gen.Kernel.Frame
import proofs.«426068_j87978110091695_3_alg».proof.Proof.Gen.KernelIdeal
import proofs.«426068_j87978110091695_3_alg».proof.Proof.Gen.KernelIdeal.Skeleton
import proofs.«426068_j87978110091695_3_alg».proof.Proof.Gen.KernelIdeal.Launch
import proofs.«426068_j87978110091695_3_alg».proof.Proof.Gen.KernelIdeal.Points
import proofs.«426068_j87978110091695_3_alg».proof.Proof.Gen.KernelIdeal.Frame
import proofs.«426068_j87978110091695_3_alg».proof.Proof.Gen.ReferenceIdeal
import proofs.«426068_j87978110091695_3_alg».proof.Proof.Gen.ReferenceIdeal.Run
import proofs.«426068_j87978110091695_3_alg».proof.Proof.Gen.ReferenceIdeal.Read
import proofs.«426068_j87978110091695_3_alg».proof.Proof.Gen.Pre_finite_inputs
import proofs.«426068_j87978110091695_3_alg».proof.Proof.KernelIsSpec
import proofs.«426068_j87978110091695_3_alg».proof.Proof.RefIsSpec
import proofs.«426068_j87978110091695_3_alg».proof.Proof.FiniteInputs
import Idealize.ShloMosaic.Adequacy
import Idealize.ShloMosaic.Init

noncomputable section

namespace Cert.Proof

open Idealize.ShloMosaic Idealize.SL.Sem

/-- The kernel as printed runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- Both programs end with the attention output and weights of the (agreeing, finite) arguments: the kernel in the
    first spelling, the reference in the second, equal where q and k are finite. -/
theorem algebraic : Cert.algebraic_KernelIdeal_ReferenceIdeal := by
  intro m ρ m' ρ' hpre hagree
  refine ⟨fun c => Cert.AttnSpec.outputK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => Cert.AttnSpec.weightsK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.IsSpec.run m ρ, ?_⟩
  refine (θ_run Cert.ReferenceIdeal.defs _ _).mono (fun _ h c => ?_) (Cert.ReferenceIdeal.Value.run (F := Ideal) m' ρ')
  obtain ⟨h19, h18, hargs⟩ := h c
  obtain ⟨a0, a1, a2, a3⟩ := hagree c
  obtain ⟨f0, f1, -⟩ := Cert.FiniteInputs.real_of_pre _ _ _ _ (hpre c)
  refine ⟨h19.trans ?_, h18.trans ?_, hargs⟩
  · rw [Cert.ReferenceIdeal.Read.val_main_v19_eq, Cert.RefIsSpec.ref_output, a0, a1, a2, a3]
    exact Cert.AttnSpec.outputR_eq _ _ _ _ f0 f1
  · rw [Cert.ReferenceIdeal.Read.val_main_v18_eq, Cert.RefIsSpec.ref_weights, a0, a1, a3]
    exact Cert.AttnSpec.weightsR_eq _ _ _ f0 f1

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
